-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v65)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x16 : Shape := ⟨2, ![128, 16]⟩
abbrev S16 : Shape := ⟨1, ![16]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg5 : FVec F S16 .f32) (main_v13 : IVec S_ 1) (main_v16 : IVec S128x16 1) : IVec S_ 1 :=
  let main_c_5 : IVec S_ 1 := constantI S_ 1 1#1
  let main_v17 : IVec S_ 1 := (fun x v => Host.reduce IntOp.andi x v reducesTo_S128x16_S_d0_1 h_S_) main_v16 main_c_5
  let main_v18 : IVec S_ 1 := andi main_v13 main_v17
  let main_v19 : FVec F S16 .f32 := Host.absf main_arg5
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  main_v23

def fn {F : FTy → Type} [FloatOps F] (main_arg0 : FVec F S50000x128 .f32) (main_arg1 : IVec S2x800000 32) (main_arg2 : FVec F S128x128 .f32) (main_arg3 : FVec F S128 .f32) (main_arg4 : FVec F S128x16 .f32) (main_arg5 : FVec F S16 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x16 .f32 := Host.absf main_arg4
  let main_cst_4 : FVec F S_ .f32 := constant S_ .f32 0x7F800000#32
  let main_v15 : FVec F S128x16 .f32 := broadcastInDim S128x16 ![] bcast_S_S128x16 main_cst_4
  let main_v16 : IVec S128x16 1 := cmpf .olt main_v14 main_v15
  fn_part1 (F := F) main_arg5 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x16 : Shape := ⟨2, ![128, 16]⟩
abbrev S16 : Shape := ⟨1, ![16]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S1x128 : Shape := ⟨2, ![1, 128]⟩
abbrev S2000x128 : Shape := ⟨2, ![2000, 128]⟩
abbrev S850000x128 : Shape := ⟨2, ![850000, 128]⟩
abbrev S1x16 : Shape := ⟨2, ![1, 16]⟩
abbrev S50000x16 : Shape := ⟨2, ![50000, 16]⟩
abbrev S2000x16 : Shape := ⟨2, ![2000, 16]⟩
abbrev S850000x16 : Shape := ⟨2, ![850000, 16]⟩
abbrev S2000 : Shape := ⟨1, ![2000]⟩
abbrev S2000x1 : Shape := ⟨2, ![2000, 1]⟩

abbrev nBuf : Space → Nat
  | .hbm => 90
  | .vmem => 22
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x16, .f32⟩
  | .hbm, ⟨5, _⟩ => ⟨S16, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S50000, .i32⟩
  | .hbm, ⟨11, _⟩ => ⟨S850000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S850000, .i32⟩
  | .hbm, ⟨29, _⟩ => ⟨S850000, .i1⟩
  | .hbm, ⟨30, _⟩ => ⟨S_, .i32⟩
  | .hbm, ⟨31, _⟩ => ⟨S850000, .i32⟩
  | .hbm, ⟨32, _⟩ => ⟨S850000, .i32⟩
  | .hbm, ⟨33, _⟩ => ⟨S850000, .i32⟩
  | .hbm, ⟨34, _⟩ => ⟨S850000x1, .i32⟩
  | .hbm, ⟨35, _⟩ => ⟨S850000, .f32⟩
  | .hbm, ⟨36, _⟩ => ⟨S_, .i32⟩
  | .hbm, ⟨37, _⟩ => ⟨S850000, .i32⟩
  | .hbm, ⟨38, _⟩ => ⟨S850000, .i1⟩
  | .hbm, ⟨39, _⟩ => ⟨S_, .i32⟩
  | .hbm, ⟨40, _⟩ => ⟨S850000, .i32⟩
  | .hbm, ⟨41, _⟩ => ⟨S850000, .i32⟩
  | .hbm, ⟨42, _⟩ => ⟨S850000, .i32⟩
  | .hbm, ⟨43, _⟩ => ⟨S850000x1, .i32⟩
  | .hbm, ⟨44, _⟩ => ⟨S850000, .f32⟩
  | .hbm, ⟨45, _⟩ => ⟨S850000, .f32⟩
  | .hbm, ⟨46, _⟩ => ⟨S_, .f32⟩
  | .hbm, ⟨47, _⟩ => ⟨S128, .f32⟩
  | .hbm, ⟨48, _⟩ => ⟨S1x128, .f32⟩
  | .hbm, ⟨49, _⟩ => ⟨S50000x128, .f32⟩
  | .hbm, ⟨50, _⟩ => ⟨S_, .i32⟩
  | .hbm, ⟨51, _⟩ => ⟨S850000, .i32⟩
  | .hbm, ⟨52, _⟩ => ⟨S850000, .i1⟩
  | .hbm, ⟨53, _⟩ => ⟨S_, .i32⟩
  | .hbm, ⟨54, _⟩ => ⟨S850000, .i32⟩
  | .hbm, ⟨55, _⟩ => ⟨S850000, .i32⟩
  | .hbm, ⟨56, _⟩ => ⟨S850000, .i32⟩
  | .hbm, ⟨57, _⟩ => ⟨S850000x1, .i32⟩
  | .hbm, ⟨58, _⟩ => ⟨S850000x128, .f32⟩
  | .hbm, ⟨59, _⟩ => ⟨S850000x1, .f32⟩
  | .hbm, ⟨60, _⟩ => ⟨S850000x128, .f32⟩
  | .hbm, ⟨61, _⟩ => ⟨S850000x128, .f32⟩
  | .hbm, ⟨62, _⟩ => ⟨S_, .f32⟩
  | .hbm, ⟨63, _⟩ => ⟨S50000x128, .f32⟩
  | .hbm, ⟨64, _⟩ => ⟨S850000x1, .i32⟩
  | .hbm, ⟨65, _⟩ => ⟨S50000x128, .f32⟩
  | .hbm, ⟨66, _⟩ => ⟨S1x128, .f32⟩
  | .hbm, ⟨67, _⟩ => ⟨S50000x128, .bf16⟩
  | .hbm, ⟨68, _⟩ => ⟨S_, .f32⟩
  | .hbm, ⟨69, _⟩ => ⟨S16, .f32⟩
  | .hbm, ⟨70, _⟩ => ⟨S1x16, .f32⟩
  | .hbm, ⟨71, _⟩ => ⟨S50000x16, .f32⟩
  | .hbm, ⟨72, _⟩ => ⟨S_, .i32⟩
  | .hbm, ⟨73, _⟩ => ⟨S850000, .i32⟩
  | .hbm, ⟨74, _⟩ => ⟨S850000, .i1⟩
  | .hbm, ⟨75, _⟩ => ⟨S_, .i32⟩
  | .hbm, ⟨76, _⟩ => ⟨S850000, .i32⟩
  | .hbm, ⟨77, _⟩ => ⟨S850000, .i32⟩
  | .hbm, ⟨78, _⟩ => ⟨S850000, .i32⟩
  | .hbm, ⟨79, _⟩ => ⟨S850000x1, .i32⟩
  | .hbm, ⟨80, _⟩ => ⟨S850000x16, .f32⟩
  | .hbm, ⟨81, _⟩ => ⟨S850000x1, .f32⟩
  | .hbm, ⟨82, _⟩ => ⟨S850000x16, .f32⟩
  | .hbm, ⟨83, _⟩ => ⟨S850000x16, .f32⟩
  | .hbm, ⟨84, _⟩ => ⟨S_, .f32⟩
  | .hbm, ⟨85, _⟩ => ⟨S50000x16, .f32⟩
  | .hbm, ⟨86, _⟩ => ⟨S850000x1, .i32⟩
  | .hbm, ⟨87, _⟩ => ⟨S50000x16, .f32⟩
  | .hbm, ⟨88, _⟩ => ⟨S1x16, .f32⟩
  | .hbm, ⟨89, _⟩ => ⟨S50000x16, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S1x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S1x128, .f32⟩
  | .local _ .vmem, ⟨9, _⟩ => ⟨S2000x128, .bf16⟩
  | .local _ .vmem, ⟨10, _⟩ => ⟨S2000x128, .bf16⟩
  | .local _ .vmem, ⟨11, _⟩ => ⟨S2000x128, .bf16⟩
  | .local _ .vmem, ⟨12, _⟩ => ⟨S2000x128, .bf16⟩
  | .local _ .vmem, ⟨13, _⟩ => ⟨S128x16, .f32⟩
  | .local _ .vmem, ⟨14, _⟩ => ⟨S1x16, .f32⟩
  | .local _ .vmem, ⟨15, _⟩ => ⟨S2000x16, .f32⟩
  | .local _ .vmem, ⟨16, _⟩ => ⟨S2000x16, .f32⟩
  | .local _ .vmem, ⟨17, _⟩ => ⟨S2000x16, .f32⟩
  | .local _ .vmem, ⟨18, _⟩ => ⟨S2000x16, .f32⟩
  | .local _ .vmem, ⟨19, _⟩ => ⟨S1x16, .f32⟩
  | .local _ .vmem, ⟨20, _⟩ => ⟨S2000x16, .f32⟩
  | .local _ .vmem, ⟨21, _⟩ => ⟨S2000x16, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_6 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_10 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_c_11 : Ref sig .tc := ⟨.hbm, 72, rfl⟩
abbrev main_v51 : Ref sig .tc := ⟨.hbm, 73, rfl⟩
abbrev main_v52 : Ref sig .tc := ⟨.hbm, 74, rfl⟩
abbrev main_c_12 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_cst_13 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg3_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg2_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem3_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem2_1 : DmaSem sig := 21

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x16 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x16 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x16 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x16 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x16 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S_S128 : S_.BroadcastsInDim S128 (![] : Fin 0 → Fin S128.rank)
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S2000x128_S2000x128 : S2000x128.ShapeCasts S2000x128
  packedbf16_S2000x128_S2000x128_0_0 : (Rect.unit (s := S2000x128) ![0, 0] S2000x128.size inb_S2000x128_S2000x128_0_0).PackedRows (EltTy.packing .bf16)
  bcast_S_S16 : S_.BroadcastsInDim S16 (![] : Fin 0 → Fin S16.rank)
  shapeCasts_S16_S1x16 : S16.ShapeCasts S1x16
  inb_S128x16_S128x16_0_0 : ∀ a, (![0, 0] : Fin 2 → Nat) a + S128x16.size a ≤ S128x16.size a
  h_S128x16 : 0 < S128x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S2000x16 : S1x16.Broadcasts S2000x16
  inb_S2000x16_S2000x16_0_0 : ∀ a, (![0, 0] : Fin 2 → Nat) a + S2000x16.size a ≤ S2000x16.size a
  h_S2000x16 : 0 < S2000x16.numel
  bcast_S850000x1_S850000x16_0_1 : S850000x1.BroadcastsInDim S850000x16 (![0, 1] : Fin 2 → Fin S850000x16.rank)
  bcast_S_S50000x16 : S_.BroadcastsInDim S50000x16 (![] : Fin 0 → Fin S50000x16.rank)
  shapeCasts_S2000x16_S2000x16 : S2000x16.ShapeCasts S2000x16
  reduces_S2000x16_S2000 : S2000x16.Reduces [1] S2000
  shapeCasts_S2000_S2000x1 : S2000.ShapeCasts S2000x1
  broadcasts_S2000x1_S2000x16 : S2000x1.Broadcasts S2000x16
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S2000x128_S128x128_S2000x128_1_0_0_1_n_n_wf : DotDims.WF S2000x128 S128x128 S2000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S2000x128_S128x16_S2000x16_1_0_0_1_n_n_wf : DotDims.WF S2000x128 S128x16 S2000x16 [1] [0] [0] [1] [] []
  gather_S50000x16_S850000x1_S850000x16_1_0_n_n_0_1_116_wf : GatherDims.WF S50000x16 S850000x1 S850000x16 [1] [0] [] [0] [] 1 ![1, 16]
  scatter_S50000x16_S850000x1_S850000x16_1_0_0_1_wf : ScatterDims.WF S50000x16 S850000x1 S850000x16 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S50000x128.size a
  hwx0_3 : ∀ i : grid0.Coords, EltTy.bits .f32 = 32 ∨ (Rect.block (s := S50000x128) S2000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S50000x128.size a
  hwx1_2 : ∀ i : grid1.Coords, EltTy.bits .bf16 = 32 ∨ (Rect.block (s := S50000x128) S2000x128.size (cc1_transform_2 i) (hinb1_2 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .bf16 = 32 ∨ (Rect.block (s := S50000x128) S2000x128.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x16.size a ≤ S128x16.size a
  hwx2_1 : ∀ i : grid2.Coords, EltTy.bits .f32 = 32 ∨ (Rect.block (s := S128x16) S128x16.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x16.size a ≤ S1x16.size a
  hwx2_2 : ∀ i : grid2.Coords, EltTy.bits .f32 = 32 ∨ (Rect.block (s := S1x16) S1x16.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x16.size a ≤ S50000x16.size a
  hwx2_3 : ∀ i : grid2.Coords, EltTy.bits .f32 = 32 ∨ (Rect.block (s := S50000x16) S2000x16.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x16.size a ≤ S50000x16.size a
  hwx3_0 : ∀ i : grid3.Coords, EltTy.bits .f32 = 32 ∨ (Rect.block (s := S50000x16) S2000x16.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x16.size a ≤ S1x16.size a
  hwx3_1 : ∀ i : grid3.Coords, EltTy.bits .f32 = 32 ∨ (Rect.block (s := S1x16) S1x16.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x16.size a ≤ S50000x16.size a
  hwx3_2 : ∀ i : grid3.Coords, EltTy.bits .f32 = 32 ∨ (Rect.block (s := S50000x16) S2000x16.size (cc3_transform_2 i) (hinb3_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S2000x128_S128x16_S2000x16_1_0_0_1_n_n : DotDims S2000x128 S128x16 S2000x16 where
  lhsContracting := [1]
  rhsContracting := [0]
  lhsNonContracting := [0]
  rhsNonContracting := [1]
  lhsBatch := []
  rhsBatch := []
  wf := dot_S2000x128_S128x16_S2000x16_1_0_0_1_n_n_wf
def gather_S50000x16_S850000x1_S850000x16_1_0_n_n_0_1_116 : GatherDims S50000x16 S850000x1 S850000x16 where
  offsetDims := [1]
  collapsedSliceDims := [0]
  operandBatchingDims := []
  startIndicesBatchingDims := []
  startIndexMap := [0]
  indexVectorDim := 1
  sliceSizes := ![1, 16]
  wf := gather_S50000x16_S850000x1_S850000x16_1_0_n_n_0_1_116_wf
def scatter_S50000x16_S850000x1_S850000x16_1_0_0_1 : ScatterDims S50000x16 S850000x1 S850000x16 where
  updateWindowDims := [1]
  insertedWindowDims := [0]
  scatterDimsToOperandDims := [0]
  indexVectorDim := 1
  wf := scatter_S50000x16_S850000x1_S850000x16_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v32) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v45) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S2000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v47) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x16.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v49) S1x16.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v50) S2000x16.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v63) S2000x16.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v64) S1x16.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v65) S2000x16.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x16 : Shape := ⟨2, ![128, 16]⟩
abbrev S16 : Shape := ⟨1, ![16]⟩
abbrev S50000 : Shape := ⟨1, ![50000]⟩
abbrev S1x50000 : Shape := ⟨2, ![1, 50000]⟩
abbrev S2x50000 : Shape := ⟨2, ![2, 50000]⟩
abbrev S2x850000 : Shape := ⟨2, ![2, 850000]⟩
abbrev S1x850000 : Shape := ⟨2, ![1, 850000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S50000x16 : Shape := ⟨2, ![50000, 16]⟩
abbrev S850000x16 : Shape := ⟨2, ![850000, 16]⟩
abbrev S1x16 : Shape := ⟨2, ![1, 16]⟩
abbrev S50000x1 : Shape := ⟨2, ![50000, 1]⟩

abbrev nBuf : Space → Nat
  | .hbm => 106
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x16, .f32⟩
  | .hbm, ⟨5, _⟩ => ⟨S16, .f32⟩
  | .hbm, ⟨6, _⟩ => ⟨S50000, .i32⟩
  | .hbm, ⟨7, _⟩ => ⟨S1x50000, .i32⟩
  | .hbm, ⟨8, _⟩ => ⟨S1x50000, .i32⟩
  | .hbm, ⟨9, _⟩ => ⟨S2x50000, .i32⟩
  | .hbm, ⟨10, _⟩ => ⟨S2x850000, .i32⟩
  | .hbm, ⟨11, _⟩ => ⟨S1x850000, .i32⟩
  | .hbm, ⟨12, _⟩ => ⟨S850000, .i32⟩
  | .hbm, ⟨13, _⟩ => ⟨S1x850000, .i32⟩
  | .hbm, ⟨14, _⟩ => ⟨S850000, .i32⟩
  | .hbm, ⟨15, _⟩ => ⟨S_, .f32⟩
  | .hbm, ⟨16, _⟩ => ⟨S850000, .f32⟩
  | .hbm, ⟨17, _⟩ => ⟨S_, .f32⟩
  | .hbm, ⟨18, _⟩ => ⟨S50000, .f32⟩
  | .hbm, ⟨19, _⟩ => ⟨S850000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S50000, .f32⟩
  | .hbm, ⟨25, _⟩ => ⟨S_, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S_, .i32⟩
  | .hbm, ⟨30, _⟩ => ⟨S850000, .i32⟩
  | .hbm, ⟨31, _⟩ => ⟨S850000, .i1⟩
  | .hbm, ⟨32, _⟩ => ⟨S_, .i32⟩
  | .hbm, ⟨33, _⟩ => ⟨S850000, .i32⟩
  | .hbm, ⟨34, _⟩ => ⟨S850000, .i32⟩
  | .hbm, ⟨35, _⟩ => ⟨S850000, .i32⟩
  | .hbm, ⟨36, _⟩ => ⟨S850000x1, .i32⟩
  | .hbm, ⟨37, _⟩ => ⟨S850000, .f32⟩
  | .hbm, ⟨38, _⟩ => ⟨S_, .i32⟩
  | .hbm, ⟨39, _⟩ => ⟨S850000, .i32⟩
  | .hbm, ⟨40, _⟩ => ⟨S850000, .i1⟩
  | .hbm, ⟨41, _⟩ => ⟨S_, .i32⟩
  | .hbm, ⟨42, _⟩ => ⟨S850000, .i32⟩
  | .hbm, ⟨43, _⟩ => ⟨S850000, .i32⟩
  | .hbm, ⟨44, _⟩ => ⟨S850000, .i32⟩
  | .hbm, ⟨45, _⟩ => ⟨S850000x1, .i32⟩
  | .hbm, ⟨46, _⟩ => ⟨S850000, .f32⟩
  | .hbm, ⟨47, _⟩ => ⟨S850000, .f32⟩
  | .hbm, ⟨48, _⟩ => ⟨S50000x128, .f32⟩
  | .hbm, ⟨49, _⟩ => ⟨S_, .i32⟩
  | .hbm, ⟨50, _⟩ => ⟨S850000, .i32⟩
  | .hbm, ⟨51, _⟩ => ⟨S850000, .i1⟩
  | .hbm, ⟨52, _⟩ => ⟨S_, .i32⟩
  | .hbm, ⟨53, _⟩ => ⟨S850000, .i32⟩
  | .hbm, ⟨54, _⟩ => ⟨S850000, .i32⟩
  | .hbm, ⟨55, _⟩ => ⟨S850000, .i32⟩
  | .hbm, ⟨56, _⟩ => ⟨S850000x1, .i32⟩
  | .hbm, ⟨57, _⟩ => ⟨S850000x128, .f32⟩
  | .hbm, ⟨58, _⟩ => ⟨S850000x1, .f32⟩
  | .hbm, ⟨59, _⟩ => ⟨S850000x128, .f32⟩
  | .hbm, ⟨60, _⟩ => ⟨S850000x128, .f32⟩
  | .hbm, ⟨61, _⟩ => ⟨S_, .f32⟩
  | .hbm, ⟨62, _⟩ => ⟨S50000x128, .f32⟩
  | .hbm, ⟨63, _⟩ => ⟨S850000x1, .i32⟩
  | .hbm, ⟨64, _⟩ => ⟨S50000x128, .f32⟩
  | .hbm, ⟨65, _⟩ => ⟨S1x128, .f32⟩
  | .hbm, ⟨66, _⟩ => ⟨S50000x128, .f32⟩
  | .hbm, ⟨67, _⟩ => ⟨S50000x128, .f32⟩
  | .hbm, ⟨68, _⟩ => ⟨S_, .f32⟩
  | .hbm, ⟨69, _⟩ => ⟨S50000x128, .f32⟩
  | .hbm, ⟨70, _⟩ => ⟨S50000x128, .f32⟩
  | .hbm, ⟨71, _⟩ => ⟨S50000x16, .f32⟩
  | .hbm, ⟨72, _⟩ => ⟨S_, .i32⟩
  | .hbm, ⟨73, _⟩ => ⟨S850000, .i32⟩
  | .hbm, ⟨74, _⟩ => ⟨S850000, .i1⟩
  | .hbm, ⟨75, _⟩ => ⟨S_, .i32⟩
  | .hbm, ⟨76, _⟩ => ⟨S850000, .i32⟩
  | .hbm, ⟨77, _⟩ => ⟨S850000, .i32⟩
  | .hbm, ⟨78, _⟩ => ⟨S850000, .i32⟩
  | .hbm, ⟨79, _⟩ => ⟨S850000x1, .i32⟩
  | .hbm, ⟨80, _⟩ => ⟨S850000x16, .f32⟩
  | .hbm, ⟨81, _⟩ => ⟨S850000x1, .f32⟩
  | .hbm, ⟨82, _⟩ => ⟨S850000x16, .f32⟩
  | .hbm, ⟨83, _⟩ => ⟨S850000x16, .f32⟩
  | .hbm, ⟨84, _⟩ => ⟨S_, .f32⟩
  | .hbm, ⟨85, _⟩ => ⟨S50000x16, .f32⟩
  | .hbm, ⟨86, _⟩ => ⟨S850000x1, .i32⟩
  | .hbm, ⟨87, _⟩ => ⟨S50000x16, .f32⟩
  | .hbm, ⟨88, _⟩ => ⟨S1x16, .f32⟩
  | .hbm, ⟨89, _⟩ => ⟨S50000x16, .f32⟩
  | .hbm, ⟨90, _⟩ => ⟨S50000x16, .f32⟩
  | .hbm, ⟨91, _⟩ => ⟨S_, .f32⟩
  | .hbm, ⟨92, _⟩ => ⟨S50000, .f32⟩
  | .hbm, ⟨93, _⟩ => ⟨S_, .f32⟩
  | .hbm, ⟨94, _⟩ => ⟨S50000, .f32⟩
  | .hbm, ⟨95, _⟩ => ⟨S50000, .f32⟩
  | .hbm, ⟨96, _⟩ => ⟨S50000x1, .f32⟩
  | .hbm, ⟨97, _⟩ => ⟨S50000x16, .f32⟩
  | .hbm, ⟨98, _⟩ => ⟨S50000x16, .f32⟩
  | .hbm, ⟨99, _⟩ => ⟨S50000x16, .f32⟩
  | .hbm, ⟨100, _⟩ => ⟨S_, .f32⟩
  | .hbm, ⟨101, _⟩ => ⟨S50000, .f32⟩
  | .hbm, ⟨102, _⟩ => ⟨S50000x1, .f32⟩
  | .hbm, ⟨103, _⟩ => ⟨S50000x1, .f32⟩
  | .hbm, ⟨104, _⟩ => ⟨S50000x16, .f32⟩
  | .hbm, ⟨105, _⟩ => ⟨S50000x16, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v16 : Ref sig .tc := ⟨.hbm, 28, rfl⟩
abbrev main_c : Ref sig .tc := ⟨.hbm, 29, rfl⟩
abbrev main_v17 : Ref sig .tc := ⟨.hbm, 30, rfl⟩
abbrev main_v18 : Ref sig .tc := ⟨.hbm, 31, rfl⟩
abbrev main_c_3 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_c_4 : Ref sig .tc := ⟨.hbm, 38, rfl⟩
abbrev main_v24 : Ref sig .tc := ⟨.hbm, 39, rfl⟩
abbrev main_v25 : Ref sig .tc := ⟨.hbm, 40, rfl⟩
abbrev main_c_5 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_c_6 : Ref sig .tc := ⟨.hbm, 49, rfl⟩
abbrev main_v33 : Ref sig .tc := ⟨.hbm, 50, rfl⟩
abbrev main_v34 : Ref sig .tc := ⟨.hbm, 51, rfl⟩
abbrev main_c_7 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_8 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_call1_cst : Ref sig .tc := ⟨.hbm, 68, rfl⟩
abbrev main_call1_v0 : Ref sig .tc := ⟨.hbm, 69, rfl⟩
abbrev main_v49 : Ref sig .tc := ⟨.hbm, 70, rfl⟩
abbrev main_v50 : Ref sig .tc := ⟨.hbm, 71, rfl⟩
abbrev main_c_9 : Ref sig .tc := ⟨.hbm, 72, rfl⟩
abbrev main_v51 : Ref sig .tc := ⟨.hbm, 73, rfl⟩
abbrev main_v52 : Ref sig .tc := ⟨.hbm, 74, rfl⟩
abbrev main_c_10 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_cst_11 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_call2_cst : Ref sig .tc := ⟨.hbm, 91, rfl⟩
abbrev main_call2_v0 : Ref sig .tc := ⟨.hbm, 92, rfl⟩
abbrev main_call2_cst_0 : Ref sig .tc := ⟨.hbm, 93, rfl⟩
abbrev main_call2_v1 : Ref sig .tc := ⟨.hbm, 94, rfl⟩
abbrev main_call2_v2 : Ref sig .tc := ⟨.hbm, 95, rfl⟩
abbrev main_call2_v3 : Ref sig .tc := ⟨.hbm, 96, rfl⟩
abbrev main_call2_v4 : Ref sig .tc := ⟨.hbm, 97, rfl⟩
abbrev main_call2_v5 : Ref sig .tc := ⟨.hbm, 98, rfl⟩
abbrev main_call2_v6 : Ref sig .tc := ⟨.hbm, 99, rfl⟩
abbrev main_call2_cst_1 : Ref sig .tc := ⟨.hbm, 100, rfl⟩
abbrev main_call2_v7 : Ref sig .tc := ⟨.hbm, 101, rfl⟩
abbrev main_call2_v8 : Ref sig .tc := ⟨.hbm, 102, rfl⟩
abbrev main_call2_v9 : Ref sig .tc := ⟨.hbm, 103, rfl⟩
abbrev main_call2_v10 : Ref sig .tc := ⟨.hbm, 104, rfl⟩
abbrev main_v67 : Ref sig .tc := ⟨.hbm, 105, rfl⟩

abbrev nD : Nat := 1
abbrev τ : Topo := Topo.v7x

variable {F : FTy → Type} [FloatOps F]

class Facts₀ : Prop where
  bcast_S50000_S1x50000_1 : S50000.BroadcastsInDim S1x50000 (![1] : Fin 1 → Fin S1x50000.rank)
  concatenates_S1x50000_S1x50000_S2x50000_d0 : Shape.Concatenates [S1x50000, S1x50000] S2x50000 0
  concatenates_S2x800000_S2x50000_S2x850000_d1 : Shape.Concatenates [S2x800000, S2x50000] S2x850000 1
  slices_S2x850000_S1x850000_0_0 : S2x850000.Slices ![0, 0] S1x850000
  shapeCasts_S1x850000_S850000 : S1x850000.ShapeCasts S850000
  slices_S2x850000_S1x850000_1_0 : S2x850000.Slices ![1, 0] S1x850000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S850000x1_S850000x16_0_1 : S850000x1.BroadcastsInDim S850000x16 (![0, 1] : Fin 2 → Fin S850000x16.rank)
  bcast_S_S50000x16 : S_.BroadcastsInDim S50000x16 (![] : Fin 0 → Fin S50000x16.rank)
  bcast_S16_S1x16_1 : S16.BroadcastsInDim S1x16 (![1] : Fin 1 → Fin S1x16.rank)
  bcast_S1x16_S50000x16_0_1 : S1x16.BroadcastsInDim S50000x16 (![0, 1] : Fin 2 → Fin S50000x16.rank)
  reducesTo_S50000x16_S50000_d1 : S50000x16.ReducesTo [1] S50000
  h_S_ : 0 < S_.numel
  bcast_S50000_S50000x1_0 : S50000.BroadcastsInDim S50000x1 (![0] : Fin 1 → Fin S50000x1.rank)
  bcast_S50000x1_S50000x16_0_1 : S50000x1.BroadcastsInDim S50000x16 (![0, 1] : Fin 2 → Fin S50000x16.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x128_S50000x128_1_0_0_1_n_n_wf : DotDims.WF S50000x128 S128x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x16_S50000x16_1_0_0_1_n_n_wf : DotDims.WF S50000x128 S128x16 S50000x16 [1] [0] [0] [1] [] []
  gather_S50000x16_S850000x1_S850000x16_1_0_n_n_0_1_116_wf : GatherDims.WF S50000x16 S850000x1 S850000x16 [1] [0] [] [0] [] 1 ![1, 16]
  scatter_S50000x16_S850000x1_S850000x16_1_0_0_1_wf : ScatterDims.WF S50000x16 S850000x1 S850000x16 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x16_S50000x16_1_0_0_1_n_n : DotDims S50000x128 S128x16 S50000x16 where
  lhsContracting := [1]
  rhsContracting := [0]
  lhsNonContracting := [0]
  rhsNonContracting := [1]
  lhsBatch := []
  rhsBatch := []
  wf := dot_S50000x128_S128x16_S50000x16_1_0_0_1_n_n_wf
def gather_S50000x16_S850000x1_S850000x16_1_0_n_n_0_1_116 : GatherDims S50000x16 S850000x1 S850000x16 where
  offsetDims := [1]
  collapsedSliceDims := [0]
  operandBatchingDims := []
  startIndicesBatchingDims := []
  startIndexMap := [0]
  indexVectorDim := 1
  sliceSizes := ![1, 16]
  wf := gather_S50000x16_S850000x1_S850000x16_1_0_n_n_0_1_116_wf
def scatter_S50000x16_S850000x1_S850000x16_1_0_0_1 : ScatterDims S50000x16 S850000x1 S850000x16 where
  updateWindowDims := [1]
  insertedWindowDims := [0]
  scatterDimsToOperandDims := [0]
  indexVectorDim := 1
  wf := scatter_S50000x16_S850000x1_S850000x16_1_0_0_1_wf

class Facts : Prop extends Facts₀ where

variable [Facts]
-- ==== Proof.LibAfter.lean ====
/-
  A straight line of host operations run in two parts: the contents of the buffers after the whole list are those after its
  tail, started from the contents after its head. General in the program: it speaks of any list of operations.
-/
import Idealize.ShloMosaic.Lib.StableHlo.Run

noncomputable section

namespace Idealize.ShloMosaic.StableHlo

variable {nD : Nat} {τ : Topo} {sig : RefSig} {Val : EltTy → Type}

/-- The contents after two lists run one after the other. -/
theorem after_append' (l₁ l₂ : List (HloOp τ sig Val)) (V : Valuation τ sig Val) :
    after (l₁ ++ l₂) V = after l₂ (after l₁ V) := by
  induction l₁ generalizing V with
  | nil => rfl
  | cons op l ih => exact ih (op.result V)

/-- The contents after a list, cut after its first `k` operations. -/
theorem after_take_drop (k : Nat) (l : List (HloOp τ sig Val)) (V : Valuation τ sig Val) :
    after l V = after (l.drop k) (after (l.take k) V) := by
  rw [← after_append', List.take_append_drop]

end Idealize.ShloMosaic.StableHlo

end
-- ==== Proof.RefRunHand.lean ====
/-
  The reference program's run, read back by hand in seven stretches. Its first nine operations build the two lengthened rows of
  the edge list (sources and targets, each the edge array's row followed by the node numbers); the other ninety-one read those
  rows as they are, and fall into six stretches along the data flow, each handing ONE buffer on: the inverse square root of the
  in-degree, the edge weights, the first propagated product, the second dense product, the second propagated product with its
  bias, and the row-wise log-softmax. Every buffer is written once, so a stretch leaves every buffer it does not write as it
  found it (one list of written references per stretch decides that), and each stretch, started from ANY buffer contents whose
  inputs hold their generated stages, leaves its output at its generated stage. The operation list is cut at the stretch
  boundaries (`StableHlo.after_take_drop`) and the stretches are chained: the result buffer ends at the generated last stage
  `val_main_v67` of the six arguments. The run itself is the library's run of a straight line of host operations.
-/
import proofs.«421823_j83434034692739_3_alg».proof.Proof.RefRead
import proofs.«421823_j83434034692739_3_alg».proof.Proof.LibAfter

noncomputable section

namespace Cert.ReferenceIdeal.HandRun

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]
variable (U : Valuation τ sig (Elt F))

/-! ## Typed references -/

/-- Contents moved to a typed reference's buffer type and back are the contents. -/
theorem ofBuf_toBuf {Val : EltTy → Type} {T : BufTy} (x : TRef sig T) (v : T.Contents Val) : x.ofBuf (x.toBuf v) = v := by
  obtain ⟨r, h, _, _⟩ := x
  subst h
  rfl

/-! ## Cutting a list of operations -/

/-- The contents after the operations from position `a` on: those after the operations from `b = a + k` on, started from the
    contents after the `k` operations between. -/
theorem after_drop_cut (l : List (HloOp τ sig (Elt F))) (a k b : Nat) (h : a + k = b) (V : Valuation τ sig (Elt F)) :
    StableHlo.after (l.drop a) V = StableHlo.after (l.drop b) (StableHlo.after ((l.drop a).take k) V) := by
  subst h
  exact (StableHlo.after_take_drop k (l.drop a) V).trans (by rw [List.drop_drop])

/-! ## The seven stretches and what each writes -/

/-- Operations 0 to 8: the two lengthened rows of the edge list. -/
abbrev s0 : List (HloOp τ sig (Elt F)) := (ops (F := F)).take 9
/-- The references stretch 0 writes. -/
abbrev s0_W : List (Ref sig .tc) := [main_v0, main_v1, main_v2, main_v3, main_v4, main_v5, main_v6, main_v7, main_v8]
set_option maxRecDepth 8192 in
set_option maxHeartbeats 4000000 in
theorem s0_writes : (s0 (F := F)).Forall fun op => op.writes ⊆ (s0_W.map (Proc.devRef (τ := τ) .tc)).toFinset := by
  simp only [s0, ops, List.drop_succ_cons, List.drop_zero, List.take_succ_cons, List.take_zero, List.Forall,
    StableHlo.nullary_writes, StableHlo.unary_writes, StableHlo.binary_writes, StableHlo.ternary_writes, StableHlo.reshape_writes,
    Finset.singleton_subset_iff, List.mem_toFinset]
  repeat' apply And.intro
  all_goals exact List.mem_map_of_mem (by decide)

/-- Operations 9 to 22: the in-degree of every node and its inverse square root (zero where the degree is zero). -/
abbrev s1 : List (HloOp τ sig (Elt F)) := ((ops (F := F)).drop 9).take 14
/-- The references stretch 1 writes. -/
abbrev s1_W : List (Ref sig .tc) := [main_cst, main_v9, main_cst_0, main_v10, main_v11, main_v12, main_cst_1, main_v13, main_v14, main_v15, main_cst_2, main_call0_v0, main_call0_v1, main_v16]
set_option maxRecDepth 8192 in
set_option maxHeartbeats 4000000 in
theorem s1_writes : (s1 (F := F)).Forall fun op => op.writes ⊆ (s1_W.map (Proc.devRef (τ := τ) .tc)).toFinset := by
  simp only [s1, ops, List.drop_succ_cons, List.drop_zero, List.take_succ_cons, List.take_zero, List.Forall,
    StableHlo.nullary_writes, StableHlo.unary_writes, StableHlo.binary_writes, StableHlo.ternary_writes, StableHlo.reshape_writes,
    Finset.singleton_subset_iff, List.mem_toFinset]
  repeat' apply And.intro
  all_goals exact List.mem_map_of_mem (by decide)

/-- Operations 23 to 41: the weight of every edge: the product of the two end nodes' inverse square roots. -/
abbrev s2 : List (HloOp τ sig (Elt F)) := ((ops (F := F)).drop 23).take 19
/-- The references stretch 2 writes. -/
abbrev s2_W : List (Ref sig .tc) := [main_c, main_v17, main_v18, main_c_3, main_v19, main_v20, main_v21, main_v22, main_v23, main_c_4, main_v24, main_v25, main_c_5, main_v26, main_v27, main_v28, main_v29, main_v30, main_v31]
set_option maxRecDepth 8192 in
set_option maxHeartbeats 4000000 in
theorem s2_writes : (s2 (F := F)).Forall fun op => op.writes ⊆ (s2_W.map (Proc.devRef (τ := τ) .tc)).toFinset := by
  simp only [s2, ops, List.drop_succ_cons, List.drop_zero, List.take_succ_cons, List.take_zero, List.Forall,
    StableHlo.nullary_writes, StableHlo.unary_writes, StableHlo.binary_writes, StableHlo.ternary_writes, StableHlo.reshape_writes,
    Finset.singleton_subset_iff, List.mem_toFinset]
  repeat' apply And.intro
  all_goals exact List.mem_map_of_mem (by decide)

/-- Operations 42 to 58: the first dense product and its propagation along the edges (gather, scale by the edge weight, scatter-add). -/
abbrev s3 : List (HloOp τ sig (Elt F)) := ((ops (F := F)).drop 42).take 17
/-- The references stretch 3 writes. -/
abbrev s3_W : List (Ref sig .tc) := [main_v32, main_c_6, main_v33, main_v34, main_c_7, main_v35, main_v36, main_v37, main_v38, main_v39, main_v40, main_v41, main_v42, main_cst_8, main_v43, main_v44, main_v45]
set_option maxRecDepth 8192 in
set_option maxHeartbeats 4000000 in
theorem s3_writes : (s3 (F := F)).Forall fun op => op.writes ⊆ (s3_W.map (Proc.devRef (τ := τ) .tc)).toFinset := by
  simp only [s3, ops, List.drop_succ_cons, List.drop_zero, List.take_succ_cons, List.take_zero, List.Forall,
    StableHlo.nullary_writes, StableHlo.unary_writes, StableHlo.binary_writes, StableHlo.ternary_writes, StableHlo.reshape_writes,
    Finset.singleton_subset_iff, List.mem_toFinset]
  repeat' apply And.intro
  all_goals exact List.mem_map_of_mem (by decide)

/-- Operations 59 to 65: the first bias, the rectifier and the second dense product. -/
abbrev s4 : List (HloOp τ sig (Elt F)) := ((ops (F := F)).drop 59).take 7
/-- The references stretch 4 writes. -/
abbrev s4_W : List (Ref sig .tc) := [main_v46, main_v47, main_v48, main_call1_cst, main_call1_v0, main_v49, main_v50]
set_option maxRecDepth 8192 in
set_option maxHeartbeats 4000000 in
theorem s4_writes : (s4 (F := F)).Forall fun op => op.writes ⊆ (s4_W.map (Proc.devRef (τ := τ) .tc)).toFinset := by
  simp only [s4, ops, List.drop_succ_cons, List.drop_zero, List.take_succ_cons, List.take_zero, List.Forall,
    StableHlo.nullary_writes, StableHlo.unary_writes, StableHlo.binary_writes, StableHlo.ternary_writes, StableHlo.reshape_writes,
    Finset.singleton_subset_iff, List.mem_toFinset]
  repeat' apply And.intro
  all_goals exact List.mem_map_of_mem (by decide)

/-- Operations 66 to 84: the second propagation along the edges and the second bias. -/
abbrev s5 : List (HloOp τ sig (Elt F)) := ((ops (F := F)).drop 66).take 19
/-- The references stretch 5 writes. -/
abbrev s5_W : List (Ref sig .tc) := [main_c_9, main_v51, main_v52, main_c_10, main_v53, main_v54, main_v55, main_v56, main_v57, main_v58, main_v59, main_v60, main_cst_11, main_v61, main_v62, main_v63, main_v64, main_v65, main_v66]
set_option maxRecDepth 8192 in
set_option maxHeartbeats 4000000 in
theorem s5_writes : (s5 (F := F)).Forall fun op => op.writes ⊆ (s5_W.map (Proc.devRef (τ := τ) .tc)).toFinset := by
  simp only [s5, ops, List.drop_succ_cons, List.drop_zero, List.take_succ_cons, List.take_zero, List.Forall,
    StableHlo.nullary_writes, StableHlo.unary_writes, StableHlo.binary_writes, StableHlo.ternary_writes, StableHlo.reshape_writes,
    Finset.singleton_subset_iff, List.mem_toFinset]
  repeat' apply And.intro
  all_goals exact List.mem_map_of_mem (by decide)

/-- Operations 85 to 99: the row-wise log-softmax. -/
abbrev s6 : List (HloOp τ sig (Elt F)) := (ops (F := F)).drop 85
/-- The references stretch 6 writes. -/
abbrev s6_W : List (Ref sig .tc) := [main_call2_cst, main_call2_v0, main_call2_cst_0, main_call2_v1, main_call2_v2, main_call2_v3, main_call2_v4, main_call2_v5, main_call2_v6, main_call2_cst_1, main_call2_v7, main_call2_v8, main_call2_v9, main_call2_v10, main_v67]
set_option maxRecDepth 8192 in
set_option maxHeartbeats 4000000 in
theorem s6_writes : (s6 (F := F)).Forall fun op => op.writes ⊆ (s6_W.map (Proc.devRef (τ := τ) .tc)).toFinset := by
  simp only [s6, ops, List.drop_succ_cons, List.drop_zero, List.take_succ_cons, List.take_zero, List.Forall,
    StableHlo.nullary_writes, StableHlo.unary_writes, StableHlo.binary_writes, StableHlo.ternary_writes, StableHlo.reshape_writes,
    Finset.singleton_subset_iff, List.mem_toFinset]
  repeat' apply And.intro
  all_goals exact List.mem_map_of_mem (by decide)

/-- The whole list run as the seven stretches in order. -/
theorem ops_cut (V : Valuation τ sig (Elt F)) :
    StableHlo.after (ops (F := F)) V
      = StableHlo.after s6 (StableHlo.after s5 (StableHlo.after s4 (StableHlo.after s3 (StableHlo.after s2 (StableHlo.after s1 (StableHlo.after s0 V)))))) :=
  (StableHlo.after_take_drop 9 (ops (F := F)) V).trans <|
  (after_drop_cut (ops (F := F)) 9 14 23 rfl _).trans <| (after_drop_cut (ops (F := F)) 23 19 42 rfl _).trans <|
  (after_drop_cut (ops (F := F)) 42 17 59 rfl _).trans <| (after_drop_cut (ops (F := F)) 59 7 66 rfl _).trans <|
  (after_drop_cut (ops (F := F)) 66 19 85 rfl _)

/-- The operations after the ninth run as the last six stretches in order. -/
theorem tail_cut (V : Valuation τ sig (Elt F)) :
    StableHlo.after ((ops (F := F)).drop 9) V
      = StableHlo.after s6 (StableHlo.after s5 (StableHlo.after s4 (StableHlo.after s3 (StableHlo.after s2 (StableHlo.after s1 V))))) :=
  (after_drop_cut (ops (F := F)) 9 14 23 rfl V).trans <| (after_drop_cut (ops (F := F)) 23 19 42 rfl _).trans <|
  (after_drop_cut (ops (F := F)) 42 17 59 rfl _).trans <| (after_drop_cut (ops (F := F)) 59 7 66 rfl _).trans <|
  (after_drop_cut (ops (F := F)) 66 19 85 rfl _)

/-! ## No operation writes an argument -/

/-- The six arguments of @main. -/
abbrev argRefs : List (Ref sig .tc) := [main_arg0, main_arg1, main_arg2, main_arg3, main_arg4, main_arg5]

/-- An argument's buffer holds after the whole list what it held before: no stretch writes it. -/
theorem ops_keep (V : Valuation τ sig (Elt F)) (r : Ref sig .tc) (hr : r ∈ argRefs) :
    StableHlo.after (ops (F := F)) V (Proc.devRef .tc r) = V (Proc.devRef .tc r) := by
  have d0 : ∀ r ∈ argRefs, r ∉ s0_W := by decide
  have d1 : ∀ r ∈ argRefs, r ∉ s1_W := by decide
  have d2 : ∀ r ∈ argRefs, r ∉ s2_W := by decide
  have d3 : ∀ r ∈ argRefs, r ∉ s3_W := by decide
  have d4 : ∀ r ∈ argRefs, r ∉ s4_W := by decide
  have d5 : ∀ r ∈ argRefs, r ∉ s5_W := by decide
  have d6 : ∀ r ∈ argRefs, r ∉ s6_W := by decide
  rw [ops_cut V]
  exact (StableHlo.after_of_writes_sub s6 _ s6_writes (d6 r hr)).trans <| (StableHlo.after_of_writes_sub s5 _ s5_writes (d5 r hr)).trans <|
    (StableHlo.after_of_writes_sub s4 _ s4_writes (d4 r hr)).trans <| (StableHlo.after_of_writes_sub s3 _ s3_writes (d3 r hr)).trans <|
    (StableHlo.after_of_writes_sub s2 _ s2_writes (d2 r hr)).trans <| (StableHlo.after_of_writes_sub s1 _ s1_writes (d1 r hr)).trans <|
    StableHlo.after_of_writes_sub s0 V s0_writes (d0 r hr)

/-! ## The first stretch: the two rows -/

set_option maxHeartbeats 4000000 in
theorem head_sources : StableHlo.after ((ops (F := F)).take 9) U (Proc.devRef .tc main_v6) = val_main_v6 (F := F) (U (Proc.devRef .tc main_arg1)) := by
  simp only [ops, List.take_succ_cons, List.take_zero]
  after_results
  rfl

set_option maxHeartbeats 4000000 in
theorem head_targets : StableHlo.after ((ops (F := F)).take 9) U (Proc.devRef .tc main_v8) = val_main_v8 (F := F) (U (Proc.devRef .tc main_arg1)) := by
  simp only [ops, List.take_succ_cons, List.take_zero]
  after_results
  rfl

/-! ## The other stretches, each from any contents that hold its inputs -/

set_option maxRecDepth 8192 in
set_option maxHeartbeats 4000000 in
theorem s1_result (V : Valuation τ sig (Elt F)) (x1 : (⟨S2x800000, .i32⟩ : BufTy).Contents (Elt F))
    (h8 : V (Proc.devRef .tc main_v8) = val_main_v8 (F := F) x1) :
    StableHlo.after (s1 (F := F)) V (Proc.devRef .tc main_v16) = val_main_v16 (F := F) x1 := by
  simp only [s1, ops, List.drop_succ_cons, List.drop_zero, List.take_succ_cons, List.take_zero]
  after_results_simp
  rw [h8]
  have c2 : ∀ w : (⟨S_, .f32⟩ : BufTy).Contents (Elt F), (TRef.of (T := ⟨S_, .f32⟩) main_cst_2).ofBuf w = w := fun _ => rfl
  have c14 : ∀ w : (⟨S50000, .i1⟩ : BufTy).Contents (Elt F), (TRef.of (T := ⟨S50000, .i1⟩) main_v14).ofBuf w = w := fun _ => rfl
  have c15 : ∀ w : (⟨S50000, .f32⟩ : BufTy).Contents (Elt F), (TRef.of (T := ⟨S50000, .f32⟩) main_v15).ofBuf w = w := fun _ => rfl
  have c16 : ∀ w : (⟨S50000, .f32⟩ : BufTy).Contents (Elt F), (TRef.of (T := ⟨S50000, .f32⟩) main_v16).toBuf w = w := fun _ => rfl
  simp only [ofBuf_toBuf, c2, c14, c15, c16]
  rfl

set_option maxRecDepth 8192 in
set_option maxHeartbeats 4000000 in
theorem s2_result (V : Valuation τ sig (Elt F)) (x1 : (⟨S2x800000, .i32⟩ : BufTy).Contents (Elt F))
    (h6 : V (Proc.devRef .tc main_v6) = val_main_v6 (F := F) x1)
    (h8 : V (Proc.devRef .tc main_v8) = val_main_v8 (F := F) x1)
    (h16 : V (Proc.devRef .tc main_v16) = val_main_v16 (F := F) x1) :
    StableHlo.after (s2 (F := F)) V (Proc.devRef .tc main_v31) = val_main_v31 (F := F) x1 := by
  simp only [s2, ops, List.drop_succ_cons, List.drop_zero, List.take_succ_cons, List.take_zero]
  after_results_simp
  rw [h6, h8, h16]
  rfl

set_option maxRecDepth 8192 in
set_option maxHeartbeats 4000000 in
theorem s3_result (V : Valuation τ sig (Elt F)) (x0 : (⟨S50000x128, .f32⟩ : BufTy).Contents (Elt F)) (x1 : (⟨S2x800000, .i32⟩ : BufTy).Contents (Elt F)) (x2 : (⟨S128x128, .f32⟩ : BufTy).Contents (Elt F))
    (h0 : V (Proc.devRef .tc main_arg0) = x0)
    (h2 : V (Proc.devRef .tc main_arg2) = x2)
    (h6 : V (Proc.devRef .tc main_v6) = val_main_v6 (F := F) x1)
    (h8 : V (Proc.devRef .tc main_v8) = val_main_v8 (F := F) x1)
    (h31 : V (Proc.devRef .tc main_v31) = val_main_v31 (F := F) x1) :
    StableHlo.after (s3 (F := F)) V (Proc.devRef .tc main_v45) = val_main_v45 (F := F) x0 x1 x2 := by
  simp only [s3, ops, List.drop_succ_cons, List.drop_zero, List.take_succ_cons, List.take_zero]
  after_results_simp
  rw [h0, h2, h6, h8, h31]
  rfl

set_option maxRecDepth 8192 in
set_option maxHeartbeats 4000000 in
theorem s4_result (V : Valuation τ sig (Elt F)) (x0 : (⟨S50000x128, .f32⟩ : BufTy).Contents (Elt F)) (x1 : (⟨S2x800000, .i32⟩ : BufTy).Contents (Elt F)) (x2 : (⟨S128x128, .f32⟩ : BufTy).Contents (Elt F)) (x3 : (⟨S128, .f32⟩ : BufTy).Contents (Elt F)) (x4 : (⟨S128x16, .f32⟩ : BufTy).Contents (Elt F))
    (h3 : V (Proc.devRef .tc main_arg3) = x3)
    (h4 : V (Proc.devRef .tc main_arg4) = x4)
    (h45 : V (Proc.devRef .tc main_v45) = val_main_v45 (F := F) x0 x1 x2) :
    StableHlo.after (s4 (F := F)) V (Proc.devRef .tc main_v50) = val_main_v50 (F := F) x0 x1 x2 x3 x4 := by
  simp only [s4, ops, List.drop_succ_cons, List.drop_zero, List.take_succ_cons, List.take_zero]
  after_results_simp
  rw [h3, h4, h45]
  have c48 : ∀ w : (⟨S50000x128, .f32⟩ : BufTy).Contents (Elt F), (TRef.of (T := ⟨S50000x128, .f32⟩) main_v48).ofBuf w = w := fun _ => rfl
  have c49 : ∀ w : (⟨S50000x128, .f32⟩ : BufTy).Contents (Elt F), (TRef.of (T := ⟨S50000x128, .f32⟩) main_v49).toBuf w = w := fun _ => rfl
  simp only [ofBuf_toBuf, c48, c49]
  rfl

set_option maxRecDepth 8192 in
set_option maxHeartbeats 4000000 in
theorem s5_result (V : Valuation τ sig (Elt F)) (x0 : (⟨S50000x128, .f32⟩ : BufTy).Contents (Elt F)) (x1 : (⟨S2x800000, .i32⟩ : BufTy).Contents (Elt F)) (x2 : (⟨S128x128, .f32⟩ : BufTy).Contents (Elt F)) (x3 : (⟨S128, .f32⟩ : BufTy).Contents (Elt F)) (x4 : (⟨S128x16, .f32⟩ : BufTy).Contents (Elt F)) (x5 : (⟨S16, .f32⟩ : BufTy).Contents (Elt F))
    (h5 : V (Proc.devRef .tc main_arg5) = x5)
    (h6 : V (Proc.devRef .tc main_v6) = val_main_v6 (F := F) x1)
    (h8 : V (Proc.devRef .tc main_v8) = val_main_v8 (F := F) x1)
    (h31 : V (Proc.devRef .tc main_v31) = val_main_v31 (F := F) x1)
    (h50 : V (Proc.devRef .tc main_v50) = val_main_v50 (F := F) x0 x1 x2 x3 x4) :
    StableHlo.after (s5 (F := F)) V (Proc.devRef .tc main_v66) = val_main_v66 (F := F) x0 x1 x2 x3 x4 x5 := by
  simp only [s5, ops, List.drop_succ_cons, List.drop_zero, List.take_succ_cons, List.take_zero]
  after_results_simp
  rw [h5, h6, h8, h31, h50]
  rfl

set_option maxRecDepth 8192 in
set_option maxHeartbeats 4000000 in
theorem s6_result (V : Valuation τ sig (Elt F)) (x0 : (⟨S50000x128, .f32⟩ : BufTy).Contents (Elt F)) (x1 : (⟨S2x800000, .i32⟩ : BufTy).Contents (Elt F)) (x2 : (⟨S128x128, .f32⟩ : BufTy).Contents (Elt F)) (x3 : (⟨S128, .f32⟩ : BufTy).Contents (Elt F)) (x4 : (⟨S128x16, .f32⟩ : BufTy).Contents (Elt F)) (x5 : (⟨S16, .f32⟩ : BufTy).Contents (Elt F))
    (h66 : V (Proc.devRef .tc main_v66) = val_main_v66 (F := F) x0 x1 x2 x3 x4 x5) :
    StableHlo.after (s6 (F := F)) V (Proc.devRef .tc main_v67) = val_main_v67 (F := F) x0 x1 x2 x3 x4 x5 := by
  simp only [s6, ops, List.drop_succ_cons, List.drop_zero, List.take_succ_cons, List.take_zero]
  after_results_simp
  rw [h66]
  have c66 : ∀ w : (⟨S50000x16, .f32⟩ : BufTy).Contents (Elt F), (TRef.of (T := ⟨S50000x16, .f32⟩) main_v66).ofBuf w = w := fun _ => rfl
  have c67 : ∀ w : (⟨S50000x16, .f32⟩ : BufTy).Contents (Elt F), (TRef.of (T := ⟨S50000x16, .f32⟩) main_v67).toBuf w = w := fun _ => rfl
  simp only [ofBuf_toBuf, c66, c67]
  rfl

/-! ## What the stretches after the ninth operation find in place -/

/-- The buffers no stretch after the ninth operation writes and some later stretch reads: five arguments and the two rows. -/
abbrev keptRefs : List (Ref sig .tc) := [main_arg0, main_arg2, main_arg3, main_arg4, main_arg5, main_v6, main_v8]

/-- The contents `V` hold the five arguments `x0, x2, …, x5` and the two rows of the edge array `x1`. -/
structure Kept (V : Valuation τ sig (Elt F)) (x0 : (⟨S50000x128, .f32⟩ : BufTy).Contents (Elt F)) (x1 : (⟨S2x800000, .i32⟩ : BufTy).Contents (Elt F)) (x2 : (⟨S128x128, .f32⟩ : BufTy).Contents (Elt F)) (x3 : (⟨S128, .f32⟩ : BufTy).Contents (Elt F)) (x4 : (⟨S128x16, .f32⟩ : BufTy).Contents (Elt F)) (x5 : (⟨S16, .f32⟩ : BufTy).Contents (Elt F)) : Prop where
  a0 : V (Proc.devRef .tc main_arg0) = x0
  a2 : V (Proc.devRef .tc main_arg2) = x2
  a3 : V (Proc.devRef .tc main_arg3) = x3
  a4 : V (Proc.devRef .tc main_arg4) = x4
  a5 : V (Proc.devRef .tc main_arg5) = x5
  v6 : V (Proc.devRef .tc main_v6) = val_main_v6 (F := F) x1
  v8 : V (Proc.devRef .tc main_v8) = val_main_v8 (F := F) x1

/-- A list of operations that writes none of those seven buffers leaves them as they are. -/
theorem Kept.step {V : Valuation τ sig (Elt F)} {x0 : (⟨S50000x128, .f32⟩ : BufTy).Contents (Elt F)} {x1 : (⟨S2x800000, .i32⟩ : BufTy).Contents (Elt F)} {x2 : (⟨S128x128, .f32⟩ : BufTy).Contents (Elt F)}
    {x3 : (⟨S128, .f32⟩ : BufTy).Contents (Elt F)} {x4 : (⟨S128x16, .f32⟩ : BufTy).Contents (Elt F)} {x5 : (⟨S16, .f32⟩ : BufTy).Contents (Elt F)} (h : Kept V x0 x1 x2 x3 x4 x5)
    (l : List (HloOp τ sig (Elt F))) (W : List (Ref sig .tc))
    (hW : l.Forall fun op => op.writes ⊆ (W.map (Proc.devRef (τ := τ) .tc)).toFinset) (hd : ∀ r ∈ keptRefs, r ∉ W) :
    Kept (StableHlo.after l V) x0 x1 x2 x3 x4 x5 where
  a0 := (StableHlo.after_of_writes_sub l V hW (hd main_arg0 (by decide))).trans h.a0
  a2 := (StableHlo.after_of_writes_sub l V hW (hd main_arg2 (by decide))).trans h.a2
  a3 := (StableHlo.after_of_writes_sub l V hW (hd main_arg3 (by decide))).trans h.a3
  a4 := (StableHlo.after_of_writes_sub l V hW (hd main_arg4 (by decide))).trans h.a4
  a5 := (StableHlo.after_of_writes_sub l V hW (hd main_arg5 (by decide))).trans h.a5
  v6 := (StableHlo.after_of_writes_sub l V hW (hd main_v6 (by decide))).trans h.v6
  v8 := (StableHlo.after_of_writes_sub l V hW (hd main_v8 (by decide))).trans h.v8

/-! ## The second part: the six stretches chained, the rows as it finds them -/

theorem tail_result (x1 : (⟨S2x800000, .i32⟩ : BufTy).Contents (Elt F))
    (h6 : U (Proc.devRef .tc main_v6) = val_main_v6 (F := F) x1) (h8 : U (Proc.devRef .tc main_v8) = val_main_v8 (F := F) x1) :
    StableHlo.after ((ops (F := F)).drop 9) U (Proc.devRef .tc main_v67)
      = val_main_v67 (F := F) (U (Proc.devRef .tc main_arg0)) x1 (U (Proc.devRef .tc main_arg2)) (U (Proc.devRef .tc main_arg3)) (U (Proc.devRef .tc main_arg4)) (U (Proc.devRef .tc main_arg5)) := by
  have k0 : Kept U (U (Proc.devRef .tc main_arg0)) x1 (U (Proc.devRef .tc main_arg2)) (U (Proc.devRef .tc main_arg3)) (U (Proc.devRef .tc main_arg4)) (U (Proc.devRef .tc main_arg5)) :=
    ⟨rfl, rfl, rfl, rfl, rfl, h6, h8⟩
  -- the inverse square root of the degree
  have r16 := s1_result U x1 k0.v8
  have k1 := k0.step s1 s1_W s1_writes (by decide)
  -- the edge weights, kept until the second propagation has read them
  have r31 := s2_result _ x1 k1.v6 k1.v8 r16
  have k2 := k1.step s2 s2_W s2_writes (by decide)
  have r31a := (StableHlo.after_of_writes_sub s3 _ s3_writes (by decide : main_v31 ∉ s3_W)).trans r31
  have r31b := (StableHlo.after_of_writes_sub s4 _ s4_writes (by decide : main_v31 ∉ s4_W)).trans r31a
  -- the first layer
  have r45 := s3_result _ _ x1 _ k2.a0 k2.a2 k2.v6 k2.v8 r31
  have k3 := k2.step s3 s3_W s3_writes (by decide)
  have r50 := s4_result _ _ x1 _ _ _ k3.a3 k3.a4 r45
  have k4 := k3.step s4 s4_W s4_writes (by decide)
  -- the second layer and the log-softmax
  have r66 := s5_result _ _ x1 _ _ _ _ k4.a5 k4.v6 k4.v8 r31b r50
  have r67 := s6_result _ _ x1 _ _ _ _ r66
  rw [tail_cut U]
  exact r67

/-! ## The whole list, and the run -/

/-- The result buffer after the whole list, from any contents `V`: the last stage of the six argument buffers' contents. -/
theorem result_eq (V : Valuation τ sig (Elt F)) :
    StableHlo.after (ops (F := F)) V (Proc.devRef .tc main_v67)
      = val_main_v67 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) := by
  rw [StableHlo.after_take_drop 9 (ops (F := F)) V,
    tail_result _ (V (Proc.devRef .tc main_arg1)) (head_sources V) (head_targets V),
    StableHlo.after_of_writes_sub s0 V s0_writes (by decide : main_arg0 ∉ s0_W), StableHlo.after_of_writes_sub s0 V s0_writes (by decide : main_arg2 ∉ s0_W),
    StableHlo.after_of_writes_sub s0 V s0_writes (by decide : main_arg3 ∉ s0_W), StableHlo.after_of_writes_sub s0 V s0_writes (by decide : main_arg4 ∉ s0_W),
    StableHlo.after_of_writes_sub s0 V s0_writes (by decide : main_arg5 ∉ s0_W)]

set_option maxRecDepth 8192 in
set_option maxHeartbeats 40000000 in
/-- On every device, for any float values, from any memory with zero counters: every weakly fair execution of @main terminates
    with the result at the last stage of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v67) = val_main_v67 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v67).trans (result_eq (launchContents m c)),
      (h c main_arg0).trans ((ops_keep _ main_arg0 (by decide)).trans rfl),
      (h c main_arg1).trans ((ops_keep _ main_arg1 (by decide)).trans rfl),
      (h c main_arg2).trans ((ops_keep _ main_arg2 (by decide)).trans rfl),
      (h c main_arg3).trans ((ops_keep _ main_arg3 (by decide)).trans rfl),
      (h c main_arg4).trans ((ops_keep _ main_arg4 (by decide)).trans rfl),
      (h c main_arg5).trans ((ops_keep _ main_arg5 (by decide)).trans rfl)⟩)
    (run_seq scopedRefs_eq scopedSems_eq defs main (fun _ => ops) main_eq (fun _ => ops_sub) m ρ)

end Cert.ReferenceIdeal.HandRun

end
-- ==== Proof.Glue.lean ====
/-
  The host operations of the kernel's program between its pallas_calls, as functions of arrays.
  * Before the first call: the lengthened source and target rows of the edge list (`sourcesK`, `targetsK`: row r of the edge
    array, then the node numbers), the degree of every node as a scatter-add of ones along the targets, its inverse square
    root where the degree is positive and zero elsewhere, and the edge weight `norm e = dinv (source e) · dinv (target e)`
    (`normK`; a negative node number is read from the array's end, as the gather's index arithmetic spells it); also a
    one-row array of zeros (the first dense call's "bias").
  * After each dense call: the propagation `aggregate`: gather the rows of `h` at the sources, scale row e by `norm e`,
    scatter-add the scaled rows at the targets into zeros; and the layer's bias vector reshaped to one row.
  Each lemma reads one buffer after one stretch of host operations over ANY contents `U` of the buffers before it.
-/
import proofs.«421823_j83434034692739_3_alg».proof.Proof.Gen.KernelIdeal.Launch
import Idealize.ShloMosaic.Lib.StableHlo.Run
import Idealize.ShloMosaic.Lib.ValueIdx
import Idealize.ShloMosaic.Lib.ValueLayout
import Idealize.ShloMosaic.PureOps.Ideal.Laws

set_option maxRecDepth 16384

noncomputable section

namespace Cert.KernelIdeal.Glue

open Cert.KernelIdeal Cert.KernelIdeal.Gen
open Idealize.ShloMosaic Idealize.ShloMosaic.TcCoe Idealize.SL.Sem Idealize.ShloMosaic.StableHlo Idealize.ShloMosaic.ValueIdx

/-- The lengthened source row: row 0 of the edge array, then the node numbers. -/
def sourcesK (e : S2x800000.Idx → BitVec 32) : S850000.Idx → BitVec 32 :=
  concatenate S850000 0 [⟨S800000, shapeCast S800000 (extractStridedSlice S1x800000 ![0, 0] e slices_S2x800000_S1x800000_0_0) shapeCasts_S1x800000_S800000⟩, ⟨S50000, iotaInDim S50000 32 0⟩] concatenates_S800000_S50000_S850000_d0

/-- The lengthened target row: row 1 of the edge array, then the node numbers. -/
def targetsK (e : S2x800000.Idx → BitVec 32) : S850000.Idx → BitVec 32 :=
  concatenate S850000 0 [⟨S800000, shapeCast S800000 (extractStridedSlice S1x800000 ![1, 0] e slices_S2x800000_S1x800000_1_0) shapeCasts_S1x800000_S800000⟩, ⟨S50000, iotaInDim S50000 32 0⟩] concatenates_S800000_S50000_S850000_d0

/-- A list of node numbers as gather indices: a negative number counts from the array's end. -/
def wrapK (ix : S850000.Idx → BitVec 32) : S850000x1.Idx → BitVec 32 :=
  broadcastInDim S850000x1 ![0] bcast_S850000_S850000x1_0
    (select (cmpi .slt ix (broadcastInDim S850000 ![] bcast_S_S850000 (constantI S_ 32 0#32)))
      (addi ix (broadcastInDim S850000 ![] bcast_S_S850000 (constantI S_ 32 50000#32))) ix)

/-- Every node's degree: ones scatter-added along the targets. -/
def degK (col : S850000.Idx → BitVec 32) : S50000.Idx → EReal :=
  Host.scatterAdd (F := Ideal) (φ := .f32) scatter_S50000_S850000x1_S850000_n_0_0_1
    (broadcastInDim S50000 ![] bcast_S_S50000 (constant (F := Ideal) S_ .f32 0x00000000#32))
    (broadcastInDim S850000x1 ![0] bcast_S850000_S850000x1_0 col)
    (broadcastInDim S850000 ![] bcast_S_S850000 (constant (F := Ideal) S_ .f32 0x3F800000#32))

/-- The inverse square root of the degree where it is positive, zero elsewhere. -/
def dinvK (col : S850000.Idx → BitVec 32) : S50000.Idx → EReal :=
  select (cmpf (F := Ideal) (φ := .f32) .ogt (degK col) (broadcastInDim S50000 ![] bcast_S_S50000 (constant (F := Ideal) S_ .f32 0x00000000#32)))
    (Host.rsqrt (F := Ideal) (φ := .f32) (degK col))
    (broadcastInDim S50000 ![] bcast_S_S50000 (id (constant (F := Ideal) S_ .f32 0x00000000#32)))

/-- The edge weights. -/
def normK (row col : S850000.Idx → BitVec 32) : S850000.Idx → EReal :=
  mulf (F := Ideal) (φ := .f32) (Host.gather gather_S50000_S850000x1_S850000_n_0_n_n_0_1_1 (dinvK col) (wrapK row))
    (Host.gather gather_S50000_S850000x1_S850000_n_0_n_n_0_1_1 (dinvK col) (wrapK col))

/-- One propagation of a [50000, 128] array along the edges. -/
def aggregate128 (h : S50000x128.Idx → EReal) (row col : S850000.Idx → BitVec 32) (norm : S850000.Idx → EReal) : S50000x128.Idx → EReal :=
  Host.scatterAdd (F := Ideal) (φ := .f32) scatter_S50000x128_S850000x1_S850000x128_1_0_0_1
    (broadcastInDim S50000x128 ![] bcast_S_S50000x128 (constant (F := Ideal) S_ .f32 0x00000000#32))
    (broadcastInDim S850000x1 ![0] bcast_S850000_S850000x1_0 col)
    (mulf (F := Ideal) (φ := .f32) (Host.gather gather_S50000x128_S850000x1_S850000x128_1_0_n_n_0_1_1128 h (wrapK row))
      (broadcastInDim S850000x128 ![0, 1] bcast_S850000x1_S850000x128_0_1 (broadcastInDim S850000x1 ![0] bcast_S850000_S850000x1_0 norm)))

/-- One propagation of a [50000, 16] array along the edges. -/
def aggregate16 (h : S50000x16.Idx → EReal) (row col : S850000.Idx → BitVec 32) (norm : S850000.Idx → EReal) : S50000x16.Idx → EReal :=
  Host.scatterAdd (F := Ideal) (φ := .f32) scatter_S50000x16_S850000x1_S850000x16_1_0_0_1
    (broadcastInDim S50000x16 ![] bcast_S_S50000x16 (constant (F := Ideal) S_ .f32 0x00000000#32))
    (broadcastInDim S850000x1 ![0] bcast_S850000_S850000x1_0 col)
    (mulf (F := Ideal) (φ := .f32) (Host.gather gather_S50000x16_S850000x1_S850000x16_1_0_n_n_0_1_116 h (wrapK row))
      (broadcastInDim S850000x16 ![0, 1] bcast_S850000x1_S850000x16_0_1 (broadcastInDim S850000x1 ![0] bcast_S850000_S850000x1_0 norm)))

/-! ## Before the first call

The first seven operations build the two lengthened rows; the next eleven the degrees, their sign test, their inverse square
roots and a zero; then the three operations of the selection and the twenty-two that gather and multiply. Each stretch is read
by itself over any contents of the buffers before it, and a buffer a stretch does not write is carried through it. -/

section Lists

variable {F : FTy → Type} [FloatOps F]

/-- The first seven host operations: the two lengthened rows of the edge list. -/
abbrev rowsOps : List (HloOp τ sig (Elt F)) :=
  [ StableHlo.unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v0 main_v1 rfl shapeCasts_S1x800000_S800000,
    StableHlo.unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v2 main_v3 rfl shapeCasts_S1x800000_S800000,
    StableHlo.nullary main_v4 (iotaInDim S50000 32 0),
    StableHlo.binary main_v1 main_v4 main_v5 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.binary main_v3 main_v4 main_v6 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)) ]

/-- The next eleven: ones scatter-added along the targets, the sign test, the inverse square root, a zero. -/
abbrev degOps : List (HloOp τ sig (Elt F)) :=
  [ StableHlo.nullary main_cst (constant S_ .f32 0x3F800000#32),
    StableHlo.unary main_cst main_v7 (broadcastInDim S850000 ![] bcast_S_S850000 : (⟨S_, .f32⟩ : BufTy).Contents (Elt F) → (⟨S850000, .f32⟩ : BufTy).Contents (Elt F)),
    StableHlo.nullary main_cst_0 (constant S_ .f32 0x00000000#32),
    StableHlo.unary main_cst_0 main_v8 (broadcastInDim S50000 ![] bcast_S_S50000 : (⟨S_, .f32⟩ : BufTy).Contents (Elt F) → (⟨S50000, .f32⟩ : BufTy).Contents (Elt F)),
    StableHlo.unary main_v6 main_v9 (broadcastInDim S850000x1 ![0] bcast_S850000_S850000x1_0 : (⟨S850000, .i32⟩ : BufTy).Contents (Elt F) → (⟨S850000x1, .i32⟩ : BufTy).Contents (Elt F)),
    StableHlo.ternary main_v8 main_v9 main_v7 main_v10 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    StableHlo.nullary main_cst_1 (constant S_ .f32 0x00000000#32),
    StableHlo.unary main_cst_1 main_v11 (broadcastInDim S50000 ![] bcast_S_S50000 : (⟨S_, .f32⟩ : BufTy).Contents (Elt F) → (⟨S50000, .f32⟩ : BufTy).Contents (Elt F)),
    StableHlo.binary main_v10 main_v11 main_v12 (cmpf .ogt : (⟨S50000, .f32⟩ : BufTy).Contents (Elt F) → (⟨S50000, .f32⟩ : BufTy).Contents (Elt F) → (⟨S50000, .i1⟩ : BufTy).Contents (Elt F)),
    StableHlo.unary main_v10 main_v13 (Host.rsqrt : (⟨S50000, .f32⟩ : BufTy).Contents (Elt F) → (⟨S50000, .f32⟩ : BufTy).Contents (Elt F)),
    StableHlo.nullary main_cst_2 (constant S_ .f32 0x00000000#32) ]

/-- The first stretch of host operations is these two lists, one after the other. -/
theorem hostOps0_split : (hostOps0 : List (HloOp τ sig (Elt F))) = rowsOps ++ degOps := rfl

end Lists

/-- The buffers each stretch writes. -/
abbrev rowsW : List (Ref sig .tc) := [main_v0, main_v1, main_v2, main_v3, main_v4, main_v5, main_v6]
abbrev degW : List (Ref sig .tc) := [main_cst, main_v7, main_cst_0, main_v8, main_v9, main_v10, main_cst_1, main_v11, main_v12, main_v13, main_cst_2]
abbrev whereW : List (Ref sig .tc) := [main_call0_v0, main_call0_v1, main_v14]
abbrev normW : List (Ref sig .tc) := [main_c, main_v15, main_v16, main_c_3, main_v17, main_v18, main_v19, main_v20, main_v21, main_c_4, main_v22, main_v23, main_c_5, main_v24, main_v25, main_v26, main_v27, main_v28, main_v29, main_cst_6, main_v30, main_v31]

/-- One operation writes one buffer, and that buffer is on the stretch's list. -/
local macro "writes_one" : tactic =>
  `(tactic| (simp only [StableHlo.nullary_writes, StableHlo.unary_writes, StableHlo.binary_writes, StableHlo.ternary_writes,
      StableHlo.reshape_writes, Finset.singleton_subset_iff, List.mem_toFinset]; exact List.mem_map_of_mem (by decide)))

theorem rowsOps_writes : (rowsOps : List (HloOp τ sig (Elt Ideal))).Forall fun op => op.writes ⊆ (rowsW.map (Proc.devRef (τ := τ) .tc)).toFinset := by
  simp only [List.Forall]; repeat' constructor
  all_goals writes_one
theorem degOps_writes : (degOps : List (HloOp τ sig (Elt Ideal))).Forall fun op => op.writes ⊆ (degW.map (Proc.devRef (τ := τ) .tc)).toFinset := by
  simp only [List.Forall]; repeat' constructor
  all_goals writes_one
theorem whereOps_writes : (hostOps0_1 : List (HloOp τ sig (Elt Ideal))).Forall fun op => op.writes ⊆ (whereW.map (Proc.devRef (τ := τ) .tc)).toFinset := by
  simp only [List.Forall]; repeat' constructor
  all_goals writes_one
theorem normOps_writes : (hostOps0_2 : List (HloOp τ sig (Elt Ideal))).Forall fun op => op.writes ⊆ (normW.map (Proc.devRef (τ := τ) .tc)).toFinset := by
  simp only [List.Forall]; repeat' constructor
  all_goals writes_one

variable (U : Valuation τ sig (Elt Ideal))

/-! ### The rows -/

set_option maxHeartbeats 4000000 in
theorem head_sources : StableHlo.after rowsOps U (Proc.devRef .tc main_v5) = sourcesK (U (Proc.devRef .tc main_arg1)) := by
  after_results
  rfl

set_option maxHeartbeats 4000000 in
theorem head_targets : StableHlo.after rowsOps U (Proc.devRef .tc main_v6) = targetsK (U (Proc.devRef .tc main_arg1)) := by
  after_results
  rfl

/-- A buffer the rows' operations do not write is carried through them. -/
theorem head_keep (r : Ref sig .tc) (h : r ∉ rowsW) : StableHlo.after rowsOps U (Proc.devRef .tc r) = U (Proc.devRef .tc r) :=
  StableHlo.after_of_writes_sub rowsOps U rowsOps_writes h

/-! ### The degrees -/

set_option maxHeartbeats 4000000 in
theorem deg_positive : StableHlo.after degOps U (Proc.devRef .tc main_v12)
    = cmpf (F := Ideal) (φ := .f32) .ogt (degK (U (Proc.devRef .tc main_v6))) (broadcastInDim S50000 ![] bcast_S_S50000 (constant (F := Ideal) S_ .f32 0x00000000#32)) := by
  after_results_simp
  rfl

set_option maxHeartbeats 4000000 in
theorem deg_rsqrt : StableHlo.after degOps U (Proc.devRef .tc main_v13) = Host.rsqrt (F := Ideal) (φ := .f32) (degK (U (Proc.devRef .tc main_v6))) := by
  after_results_simp
  rfl

set_option maxHeartbeats 4000000 in
theorem deg_zero : StableHlo.after degOps U (Proc.devRef .tc main_cst_2) = constant (F := Ideal) S_ .f32 0x00000000#32 := by
  after_results_simp

/-! ### The selection -/

set_option maxHeartbeats 4000000 in
theorem where_select : StableHlo.after hostOps0_1 U (Proc.devRef .tc main_v14)
    = select (U (Proc.devRef .tc main_v12)) (U (Proc.devRef .tc main_v13)) (broadcastInDim S50000 ![] bcast_S_S50000 (id (U (Proc.devRef .tc main_cst_2)))) := by
  after_results_simp
  rfl

/-! ### The weights -/

set_option maxHeartbeats 4000000 in
theorem norm_product : StableHlo.after hostOps0_2 U (Proc.devRef .tc main_v29)
    = mulf (F := Ideal) (φ := .f32) (Host.gather gather_S50000_S850000x1_S850000_n_0_n_n_0_1_1 (U (Proc.devRef .tc main_v14)) (wrapK (U (Proc.devRef .tc main_v5))))
        (Host.gather gather_S50000_S850000x1_S850000_n_0_n_n_0_1_1 (U (Proc.devRef .tc main_v14)) (wrapK (U (Proc.devRef .tc main_v6)))) := by
  after_results_simp
  rfl

set_option maxHeartbeats 4000000 in
/-- The first dense call's added row is zero. -/
theorem norm_zeroRow (j : Fin 128) : (StableHlo.after hostOps0_2 U (Proc.devRef .tc main_v31) : S1x128.Idx → EReal) (ix2 (0 : Fin 1) j) = (0 : EReal) := by
  after_results_simp
  show shapeCast S1x128 (broadcastInDim S128 ![] bcast_S_S128 (constant (F := Ideal) S_ .f32 0x00000000#32)) shapeCasts_S128_S1x128 (ix2 (0 : Fin 1) j) = 0
  rw [shapeCast_a_1a_apply]
  exact Ideal.ofBits_zero_f32

/-! ### The three stretches after the rows, together -/

/-- A buffer none of the three stretches writes is carried through them. -/
theorem tail_keep (r : Ref sig .tc) (h1 : r ∉ degW) (h2 : r ∉ whereW) (h3 : r ∉ normW) :
    StableHlo.after hostOps0_2 (StableHlo.after hostOps0_1 (StableHlo.after degOps U)) (Proc.devRef .tc r) = U (Proc.devRef .tc r) :=
  (StableHlo.after_of_writes_sub hostOps0_2 _ normOps_writes h3).trans
    ((StableHlo.after_of_writes_sub hostOps0_1 _ whereOps_writes h2).trans (StableHlo.after_of_writes_sub degOps U degOps_writes h1))

/-- The edge weights, from the two rows as the stretches find them. -/
theorem tail_norm : StableHlo.after hostOps0_2 (StableHlo.after hostOps0_1 (StableHlo.after degOps U)) (Proc.devRef .tc main_v29) = normK (U (Proc.devRef .tc main_v5)) (U (Proc.devRef .tc main_v6)) := by
  rw [norm_product, where_select, deg_positive, deg_rsqrt, deg_zero]
  rw [StableHlo.after_of_writes_sub hostOps0_1 _ whereOps_writes (show main_v5 ∉ whereW by decide), StableHlo.after_of_writes_sub degOps U degOps_writes (show main_v5 ∉ degW by decide),
    StableHlo.after_of_writes_sub hostOps0_1 _ whereOps_writes (show main_v6 ∉ whereW by decide), StableHlo.after_of_writes_sub degOps U degOps_writes (show main_v6 ∉ degW by decide)]
  rfl

/-- The first dense call's added row is zero. -/
theorem tail_zeroRow (j : Fin 128) : (StableHlo.after hostOps0_2 (StableHlo.after hostOps0_1 (StableHlo.after degOps U)) (Proc.devRef .tc main_v31) : S1x128.Idx → EReal) (ix2 (0 : Fin 1) j) = (0 : EReal) :=
  norm_zeroRow _ j

/-! ## Between the first dense call and the first activation -/

set_option maxHeartbeats 4000000 in
theorem mid1_aggregate : StableHlo.after hostOps1 U (Proc.devRef .tc main_v45)
    = aggregate128 (U (Proc.devRef .tc main_v32)) (U (Proc.devRef .tc main_v5)) (U (Proc.devRef .tc main_v6)) (U (Proc.devRef .tc main_v29)) := by
  after_results_simp
  rfl

set_option maxHeartbeats 4000000 in
/-- The first layer's bias as one row. -/
theorem mid1_bias (j : Fin 128) : (StableHlo.after hostOps1 U (Proc.devRef .tc main_v46) : S1x128.Idx → EReal) (ix2 (0 : Fin 1) j)
    = (U (Proc.devRef .tc main_arg3) : S128.Idx → EReal) (ix1 j) := by
  after_results_simp
  show shapeCast S1x128 (U (Proc.devRef .tc main_arg3) : S128.Idx → EReal) shapeCasts_S128_S1x128 (ix2 (0 : Fin 1) j) = _
  rw [shapeCast_a_1a_apply]

set_option maxHeartbeats 4000000 in
theorem mid1_keep_v5 : StableHlo.after hostOps1 U (Proc.devRef .tc main_v5) = U (Proc.devRef .tc main_v5) := by after_results_simp
set_option maxHeartbeats 4000000 in
theorem mid1_keep_v6 : StableHlo.after hostOps1 U (Proc.devRef .tc main_v6) = U (Proc.devRef .tc main_v6) := by after_results_simp
set_option maxHeartbeats 4000000 in
theorem mid1_keep_v29 : StableHlo.after hostOps1 U (Proc.devRef .tc main_v29) = U (Proc.devRef .tc main_v29) := by after_results_simp
set_option maxHeartbeats 4000000 in
theorem mid1_keep_arg4 : StableHlo.after hostOps1 U (Proc.devRef .tc main_arg4) = U (Proc.devRef .tc main_arg4) := by after_results_simp
set_option maxHeartbeats 4000000 in
theorem mid1_keep_arg5 : StableHlo.after hostOps1 U (Proc.devRef .tc main_arg5) = U (Proc.devRef .tc main_arg5) := by after_results_simp

/-! ## Between the first activation and the second dense call -/

set_option maxHeartbeats 4000000 in
/-- The second dense call's added row is zero. -/
theorem mid2_zeroRow (j : Fin 16) : (StableHlo.after hostOps2 U (Proc.devRef .tc main_v49) : S1x16.Idx → EReal) (ix2 (0 : Fin 1) j) = (0 : EReal) := by
  after_results_simp
  show shapeCast S1x16 (broadcastInDim S16 ![] bcast_S_S16 (constant (F := Ideal) S_ .f32 0x00000000#32)) shapeCasts_S16_S1x16 (ix2 (0 : Fin 1) j) = 0
  rw [shapeCast_a_1a_apply]
  exact Ideal.ofBits_zero_f32

set_option maxHeartbeats 4000000 in
theorem mid2_keep_v5 : StableHlo.after hostOps2 U (Proc.devRef .tc main_v5) = U (Proc.devRef .tc main_v5) := by after_results_simp
set_option maxHeartbeats 4000000 in
theorem mid2_keep_v6 : StableHlo.after hostOps2 U (Proc.devRef .tc main_v6) = U (Proc.devRef .tc main_v6) := by after_results_simp
set_option maxHeartbeats 4000000 in
theorem mid2_keep_v29 : StableHlo.after hostOps2 U (Proc.devRef .tc main_v29) = U (Proc.devRef .tc main_v29) := by after_results_simp
set_option maxHeartbeats 4000000 in
theorem mid2_keep_v47 : StableHlo.after hostOps2 U (Proc.devRef .tc main_v47) = U (Proc.devRef .tc main_v47) := by after_results_simp
set_option maxHeartbeats 4000000 in
theorem mid2_keep_arg4 : StableHlo.after hostOps2 U (Proc.devRef .tc main_arg4) = U (Proc.devRef .tc main_arg4) := by after_results_simp
set_option maxHeartbeats 4000000 in
theorem mid2_keep_arg5 : StableHlo.after hostOps2 U (Proc.devRef .tc main_arg5) = U (Proc.devRef .tc main_arg5) := by after_results_simp

/-! ## Between the second dense call and the last activation -/

set_option maxHeartbeats 4000000 in
theorem mid3_aggregate : StableHlo.after hostOps3 U (Proc.devRef .tc main_v63)
    = aggregate16 (U (Proc.devRef .tc main_v50)) (U (Proc.devRef .tc main_v5)) (U (Proc.devRef .tc main_v6)) (U (Proc.devRef .tc main_v29)) := by
  after_results_simp
  rfl

set_option maxHeartbeats 4000000 in
/-- The second layer's bias as one row. -/
theorem mid3_bias (j : Fin 16) : (StableHlo.after hostOps3 U (Proc.devRef .tc main_v64) : S1x16.Idx → EReal) (ix2 (0 : Fin 1) j)
    = (U (Proc.devRef .tc main_arg5) : S16.Idx → EReal) (ix1 j) := by
  after_results_simp
  show shapeCast S1x16 (U (Proc.devRef .tc main_arg5) : S16.Idx → EReal) shapeCasts_S16_S1x16 (ix2 (0 : Fin 1) j) = _
  rw [shapeCast_a_1a_apply]

end Cert.KernelIdeal.Glue

end
-- ==== Proof.Dense1.lean ====
/-
  The first dense layer of the network, as the first pallas_call leaves it: on a grid of 25 row tiles, tile `t` takes rows
  `2000·t … 2000·t + 1999` of the node features `x : [50000, 128]`, multiplies them by the whole weight matrix
  `w : [128, 128]` and adds the one-row array `z : [1, 128]` to every row. Index by index the result array is
      out (r, c) = (∑ k, x (r, k) · w (k, c)) + z (0, c),
  a function of the WHOLE arrays: every tile writes its own 2000 rows of it, and the 25 tiles cover all 50000 rows.
-/
import proofs.«421823_j83434034692739_3_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Dense1

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-- Rows of `x` times the matrix `w`, plus the row `z`: the layer's result at every index of the whole array. -/
def rowsTimes (x : S50000x128.Idx → EReal) (w : S128x128.Idx → EReal) (z : S1x128.Idx → EReal) : S50000x128.Idx → EReal :=
  fun i => (∑ k : Fin 128, x (ix2 (i 0) k) * w (ix2 k (i 1))) + z (ix2 (0 : Fin 1) (i 1))

theorem origin2 : (![0, 0] : Fin 2 → Nat) = fun _ => 0 := funext fun a => by fin_cases a <;> rfl

/-! ## The product's operand indices: at output index (r, c) and contraction index k they are (r, k) and (k, c) -/

theorem lhs_row (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem lhs_col (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
theorem rhs_row (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem rhs_col (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- The tile's product into the zero accumulator, at (p, q): the sum over k of row p of the left block times column q of
    the right one. -/
theorem product_at (a : FVec Ideal S2000x128 .bf16) (b : FVec Ideal S128x128 .bf16) (p : Fin 2000) (q : Fin 128) :
    matmul dot_S2000x128_S128x128_S2000x128_1_0_0_1_n_n none a b (constant S2000x128 .f32 0x00000000#32) (ix2 p q)
      = ∑ k : Fin 128, a (ix2 p k) * b (ix2 k q) := by
  show FloatOps.matmul dot_S2000x128_S128x128_S2000x128_1_0_0_1_n_n none a b (constant S2000x128 .f32 0x00000000#32) (ix2 p q) = _
  rw [Ideal.matmul_constant_zero_apply, ← Equiv.sum_comp (ValueIdx.contrEquiv1 dot_S2000x128_S128x128_S2000x128_1_0_0_1_n_n 128 rfl rfl).symm]
  refine Finset.sum_congr rfl fun k _ => ?_
  have hk := ValueIdx.contrEquiv1_symm_val dot_S2000x128_S128x128_S2000x128_1_0_0_1_n_n 128 rfl rfl k
  have el : dot_S2000x128_S128x128_S2000x128_1_0_0_1_n_n.lhsIdx (ix2 p q) ((ValueIdx.contrEquiv1 dot_S2000x128_S128x128_S2000x128_1_0_0_1_n_n 128 rfl rfl).symm k) = ix2 p k := funext fun ax => Fin.ext (by
    match ax with
    | ⟨0, _⟩ => exact lhs_row _ _
    | ⟨1, _⟩ => exact (lhs_col _ _).trans hk)
  have er : dot_S2000x128_S128x128_S2000x128_1_0_0_1_n_n.rhsIdx (ix2 p q) ((ValueIdx.contrEquiv1 dot_S2000x128_S128x128_S2000x128_1_0_0_1_n_n 128 rfl rfl).symm k) = ix2 k q := funext fun ax => Fin.ext (by
    match ax with
    | ⟨0, _⟩ => exact (rhs_row _ _).trans hk
    | ⟨1, _⟩ => exact rhs_col _ _)
  rw [el, er]

/-- What the body stores, at (p, q) of the tile: the product's entry plus the row's entry (narrowing the operands to bf16 changes
    nothing over the extended reals). -/
theorem stored_at (x0 : Vec Ideal S2000x128 .f32) (x1 : Vec Ideal S128x128 .f32) (x2 : Vec Ideal S1x128 .f32) (p : Fin 2000) (q : Fin 128) :
    k0_pay1 x0 x1 x2 (ix2 p q) = (∑ k : Fin 128, x0 (ix2 p k) * x1 (ix2 k q)) + x2 (ix2 (0 : Fin 1) q) := by
  unfold k0_pay1
  rw [addf_apply, product_at, shapeCast_self, broadcastTo_1b_ab_apply]
  rfl

/-! ## From tiles to the array -/

/-- The printed index maps over the grid: at tile `t` the feature window and the result window sit at row block `t`, the weight
    matrix and the one-row array at their only block. -/
theorem tile_blocks : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The feature window's block at tile `t` is rows `2000·t …` of the array. -/
theorem features_block (c : Dev nD) (t : Fin cfg0.N) (y : S2000x128.Idx) (i : S50000x128.Idx)
    (h0 : (i 0).val = 2000 * t.val + (y 0).val) (h1 : (i 1).val = (y 1).val) :
    (iblk0 V c 0 t : Vec Ideal S2000x128 .f32) y = (V c main_arg0 : S50000x128.Idx → EReal) i := by
  obtain ⟨e0, e1, -⟩ := tile_blocks t
  unfold iblk0
  rw [View.read_apply]
  show V c main_arg0 _ = V c main_arg0 _
  refine congrArg (V c main_arg0) (funext fun a => Fin.ext ?_)
  match a with
  | ⟨0, _⟩ => show win0_0.index t (0 : Fin 2) * 2000 + 1 * (y 0).val = (i 0).val; rw [e0, h0]; omega
  | ⟨1, _⟩ => show win0_0.index t (1 : Fin 2) * 128 + 1 * (y 1).val = (i 1).val; rw [e1, h1]; omega

/-- The weight window's one block is the whole matrix. -/
theorem weights_block (c : Dev nD) (t : Fin cfg0.N) (y : S128x128.Idx) :
    (iblk0 V c 1 t : Vec Ideal S128x128 .f32) y = (V c main_arg2 : S128x128.Idx → EReal) y := by
  obtain ⟨-, -, e2, e3, -⟩ := tile_blocks t
  unfold iblk0
  rw [View.read_apply]
  show V c main_arg2 _ = V c main_arg2 _
  refine congrArg (V c main_arg2) (funext fun a => Fin.ext ?_)
  match a with
  | ⟨0, _⟩ => show win0_1.index t (0 : Fin 2) * 128 + 1 * (y 0).val = (y 0).val; rw [e2]; omega
  | ⟨1, _⟩ => show win0_1.index t (1 : Fin 2) * 128 + 1 * (y 1).val = (y 1).val; rw [e3]; omega

/-- The one-row window's one block is the whole row. -/
theorem row_block (c : Dev nD) (t : Fin cfg0.N) (y : S1x128.Idx) :
    (iblk0 V c 2 t : Vec Ideal S1x128 .f32) y = (V c main_v31 : S1x128.Idx → EReal) y := by
  obtain ⟨-, -, -, -, e4, e5, -⟩ := tile_blocks t
  unfold iblk0
  rw [View.read_apply]
  show V c main_v31 _ = V c main_v31 _
  refine congrArg (V c main_v31) (funext fun a => Fin.ext ?_)
  match a with
  | ⟨0, _⟩ => show win0_2.index t (0 : Fin 2) * 1 + 1 * (y 0).val = (y 0).val; rw [e4]; omega
  | ⟨1, _⟩ => show win0_2.index t (1 : Fin 2) * 128 + 1 * (y 1).val = (y 1).val; rw [e5]; omega

/-- What tile `t` stores at `y` is the layer's result at the array index `y` sits at. -/
theorem stored_tile (c : Dev nD) (t : Fin cfg0.N) (y : S2000x128.Idx) (i : S50000x128.Idx)
    (h0 : (i 0).val = 2000 * t.val + (y 0).val) (h1 : (i 1).val = (y 1).val) :
    k0_pay1 (iblk0 V c 0 t) (iblk0 V c 1 t) (iblk0 V c 2 t) y
      = rowsTimes (V c main_arg0) (V c main_arg2) (V c main_v31) i := by
  obtain ⟨p, q, rfl⟩ : ∃ (p : Fin 2000) (q : Fin 128), y = ix2 p q := ⟨y 0, y 1, eq_ix2 y⟩
  refine (stored_at (iblk0 V c 0 t) (iblk0 V c 1 t) (iblk0 V c 2 t) p q).trans ?_
  have hq : i 1 = q := Fin.ext h1
  unfold rowsTimes
  rw [hq, row_block V c t (ix2 (0 : Fin 1) q)]
  refine congrArg (· + (V c main_v31 : S1x128.Idx → EReal) (ix2 (0 : Fin 1) q)) (Finset.sum_congr rfl fun k _ => ?_)
  rw [features_block V c t (ix2 p k) (ix2 (i 0) k) h0 rfl, weights_block V c t (ix2 k q)]

/-- WHAT TILE `t` WRITES BACK is its block of the layer's result. -/
theorem flushed_eq (c : Dev nD) (t : Fin cfg0.N) :
    (dat0 V c).flushed 3 t = ((cfg0.win 3).blk t).view.read (Elt Ideal) (rowsTimes (V c main_arg0) (V c main_arg2) (V c main_v31)) := by
  show (cfg0.win 3).cut (grid0.coords t) ((dat0 V c).after 3 t) = _
  rw [after0_3]
  unfold out0_3
  rw [View.canon_unit_zero origin2]
  simp only [View.ld_unit_zero (S := S2000x128) origin2, View.ld_unit_zero (S := S128x128) origin2, View.ld_unit_zero (S := S1x128) origin2]
  obtain ⟨-, -, -, -, -, -, e6, e7⟩ := tile_blocks t
  funext j
  refine stored_tile V c t j _ ?_ ?_
  · show win0_3.index t (0 : Fin 2) * 2000 + 1 * (j 0).val = 2000 * t.val + (j 0).val; rw [e6]; omega
  · show win0_3.index t (1 : Fin 2) * 128 + 1 * (j 1).val = (j 1).val; rw [e7]; omega

/-- An index of the result array is in tile `t`'s block iff each coordinate is in the block's range. -/
theorem mem_tile (t : Fin cfg0.N) (i : S50000x128.Idx) :
    i ∈ ((cfg0.win 3).blk t).view.set ↔ ∀ a : Fin 2, win0_3.index t a * S2000x128.size a ≤ (i a).val ∧ (i a).val < win0_3.index t a * S2000x128.size a + S2000x128.size a := by
  show i ∈ ((View.whole main_v32).slice (win0_3.rect t)).set ↔ _
  rw [View.set_slice_whole, Rect.mem_set_unit]
  exact Iff.rfl

/-- Row `r` of the result is in tile `r / 2000`'s block: the 25 tiles cover the array. -/
theorem covered (i : S50000x128.Idx) : ∃ t : Fin cfg0.N, (cfg0.win 3).flush t = true ∧ i ∈ ((cfg0.win 3).blk t).view.set := by
  have hi0 : (i 0).val < 50000 := (i 0).isLt
  have hi1 : (i 1).val < 128 := (i 1).isLt
  have hlt : (i 0).val / 2000 < cfg0.N := by rw [show cfg0.N = 25 from N_0]; omega
  obtain ⟨t, ht⟩ : ∃ t : Fin cfg0.N, t.val = (i 0).val / 2000 := ⟨⟨_, hlt⟩, rfl⟩
  obtain ⟨-, -, -, -, -, -, e6, e7⟩ := tile_blocks t
  refine ⟨t, flush0_3 t, (mem_tile t i).mpr fun a => ?_⟩
  match a with
  | ⟨0, _⟩ => show win0_3.index t (0 : Fin 2) * 2000 ≤ (i 0).val ∧ (i 0).val < win0_3.index t (0 : Fin 2) * 2000 + 2000; rw [e6, ht]; omega
  | ⟨1, _⟩ => show win0_3.index t (1 : Fin 2) * 128 ≤ (i 1).val ∧ (i 1).val < win0_3.index t (1 : Fin 2) * 128 + 128; rw [e7]; omega

/-- THE RESULT ARRAY after the region: the layer's result, a function of the three arrays as the region finds them. -/
theorem result (c : Dev nD) :
    (dat0 V c).arrAt 3 cfg0.N = rowsTimes (V c main_arg0) (V c main_arg2) (V c main_v31) :=
  (dat0 V c).arrAt_eq_of_cover 3 _ (fun t _ => flushed_eq V c t) covered

end Cert.KernelIdeal.Dense1

end
-- ==== Proof.BiasRelu.lean ====
/-
  The first layer's bias and activation, as the second pallas_call leaves it: on a grid of 25 row tiles, tile `t` takes rows
  `2000·t … 2000·t + 1999` of the aggregated array `a : [50000, 128]`, adds the one-row bias `b : [1, 128]` to every row and
  keeps the larger of the sum and zero (narrowing the result's format is no change over the extended reals). Index by index
      out (r, c) = max (a (r, c) + b (0, c)) 0,
  a function of the WHOLE arrays: every tile writes its own 2000 rows of it, and the 25 tiles cover all 50000 rows.
-/
import proofs.«421823_j83434034692739_3_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.BiasRelu

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-- The biased array cut off below at zero (the zero word kept as written: it is never evaluated). -/
def biasRelu (a : S50000x128.Idx → EReal) (b : S1x128.Idx → EReal) : S50000x128.Idx → EReal :=
  fun i => max (a i + b (ix2 (0 : Fin 1) (i 1))) (Ideal.ofBits .f32 0x00000000#32)

theorem origin2 : (![0, 0] : Fin 2 → Nat) = fun _ => 0 := funext fun a => by fin_cases a <;> rfl

/-- What the body stores, at (p, q) of the tile. -/
theorem stored_at (x0 : Vec Ideal S2000x128 .f32) (x2 : Vec Ideal S1x128 .f32) (p : Fin 2000) (q : Fin 128) :
    k1_pay1 x0 x2 (ix2 p q) = max (x0 (ix2 p q) + x2 (ix2 (0 : Fin 1) q)) (Ideal.ofBits .f32 0x00000000#32) := by
  unfold k1_pay1
  show max (shapeCast S2000x128 x0 shapeCasts_S2000x128_S2000x128 (ix2 p q)
      + broadcastTo S2000x128 (shapeCast S1x128 x2 shapeCasts_S1x128_S1x128) broadcasts_S1x128_S2000x128 (ix2 p q)) _ = _
  rw [shapeCast_self, shapeCast_self, broadcastTo_1b_ab_apply]
  rfl

/-! ## From tiles to the array -/

/-- The printed index maps over the grid: at tile `t` the aggregated window and the result window sit at row block `t`, the
    one-row bias at its only block. -/
theorem tile_blocks : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The aggregated window's block at tile `t` is rows `2000·t …` of the array. -/
theorem rows_block (c : Dev nD) (t : Fin cfg1.N) (y : S2000x128.Idx) (i : S50000x128.Idx)
    (h0 : (i 0).val = 2000 * t.val + (y 0).val) (h1 : (i 1).val = (y 1).val) :
    (iblk1 V c 0 t : Vec Ideal S2000x128 .f32) y = (V c main_v45 : S50000x128.Idx → EReal) i := by
  obtain ⟨e0, e1, -⟩ := tile_blocks t
  unfold iblk1
  rw [View.read_apply]
  show V c main_v45 _ = V c main_v45 _
  refine congrArg (V c main_v45) (funext fun a => Fin.ext ?_)
  match a with
  | ⟨0, _⟩ => show win1_0.index t (0 : Fin 2) * 2000 + 1 * (y 0).val = (i 0).val; rw [e0, h0]; omega
  | ⟨1, _⟩ => show win1_0.index t (1 : Fin 2) * 128 + 1 * (y 1).val = (i 1).val; rw [e1, h1]; omega

/-- The bias window's one block is the whole row. -/
theorem bias_block (c : Dev nD) (t : Fin cfg1.N) (y : S1x128.Idx) :
    (iblk1 V c 1 t : Vec Ideal S1x128 .f32) y = (V c main_v46 : S1x128.Idx → EReal) y := by
  obtain ⟨-, -, e2, e3, -⟩ := tile_blocks t
  unfold iblk1
  rw [View.read_apply]
  show V c main_v46 _ = V c main_v46 _
  refine congrArg (V c main_v46) (funext fun a => Fin.ext ?_)
  match a with
  | ⟨0, _⟩ => show win1_1.index t (0 : Fin 2) * 1 + 1 * (y 0).val = (y 0).val; rw [e2]; omega
  | ⟨1, _⟩ => show win1_1.index t (1 : Fin 2) * 128 + 1 * (y 1).val = (y 1).val; rw [e3]; omega

/-- What tile `t` stores at `y` is the result at the array index `y` sits at. -/
theorem stored_tile (c : Dev nD) (t : Fin cfg1.N) (y : S2000x128.Idx) (i : S50000x128.Idx)
    (h0 : (i 0).val = 2000 * t.val + (y 0).val) (h1 : (i 1).val = (y 1).val) :
    k1_pay1 (iblk1 V c 0 t) (iblk1 V c 1 t) y = biasRelu (V c main_v45) (V c main_v46) i := by
  obtain ⟨p, q, rfl⟩ : ∃ (p : Fin 2000) (q : Fin 128), y = ix2 p q := ⟨y 0, y 1, eq_ix2 y⟩
  refine (stored_at (iblk1 V c 0 t) (iblk1 V c 1 t) p q).trans ?_
  have hq : i 1 = q := Fin.ext h1
  unfold biasRelu
  rw [hq, bias_block V c t (ix2 (0 : Fin 1) q), rows_block V c t (ix2 p q) i h0 h1]

/-- WHAT TILE `t` WRITES BACK is its block of the result. -/
theorem flushed_eq (c : Dev nD) (t : Fin cfg1.N) :
    (dat1 V c).flushed 2 t = ((cfg1.win 2).blk t).view.read (Elt Ideal) (biasRelu (V c main_v45) (V c main_v46)) := by
  show (cfg1.win 2).cut (grid1.coords t) ((dat1 V c).after 2 t) = _
  rw [after1_2]
  unfold out1_2
  rw [View.canon_unit_zero origin2]
  simp only [View.ld_unit_zero (S := S2000x128) origin2, View.ld_unit_zero (S := S1x128) origin2]
  obtain ⟨-, -, -, -, e4, e5⟩ := tile_blocks t
  funext j
  refine stored_tile V c t j _ ?_ ?_
  · show win1_2.index t (0 : Fin 2) * 2000 + 1 * (j 0).val = 2000 * t.val + (j 0).val; rw [e4]; omega
  · show win1_2.index t (1 : Fin 2) * 128 + 1 * (j 1).val = (j 1).val; rw [e5]; omega

/-- An index of the result array is in tile `t`'s block iff each coordinate is in the block's range. -/
theorem mem_tile (t : Fin cfg1.N) (i : S50000x128.Idx) :
    i ∈ ((cfg1.win 2).blk t).view.set ↔ ∀ a : Fin 2, win1_2.index t a * S2000x128.size a ≤ (i a).val ∧ (i a).val < win1_2.index t a * S2000x128.size a + S2000x128.size a := by
  show i ∈ ((View.whole main_v47).slice (win1_2.rect t)).set ↔ _
  rw [View.set_slice_whole, Rect.mem_set_unit]
  exact Iff.rfl

/-- Row `r` of the result is in tile `r / 2000`'s block: the 25 tiles cover the array. -/
theorem covered (i : S50000x128.Idx) : ∃ t : Fin cfg1.N, (cfg1.win 2).flush t = true ∧ i ∈ ((cfg1.win 2).blk t).view.set := by
  have hi0 : (i 0).val < 50000 := (i 0).isLt
  have hi1 : (i 1).val < 128 := (i 1).isLt
  have hlt : (i 0).val / 2000 < cfg1.N := by rw [show cfg1.N = 25 from N_1]; omega
  obtain ⟨t, ht⟩ : ∃ t : Fin cfg1.N, t.val = (i 0).val / 2000 := ⟨⟨_, hlt⟩, rfl⟩
  obtain ⟨-, -, -, -, e4, e5⟩ := tile_blocks t
  refine ⟨t, flush1_2 t, (mem_tile t i).mpr fun a => ?_⟩
  match a with
  | ⟨0, _⟩ => show win1_2.index t (0 : Fin 2) * 2000 ≤ (i 0).val ∧ (i 0).val < win1_2.index t (0 : Fin 2) * 2000 + 2000; rw [e4, ht]; omega
  | ⟨1, _⟩ => show win1_2.index t (1 : Fin 2) * 128 ≤ (i 1).val ∧ (i 1).val < win1_2.index t (1 : Fin 2) * 128 + 128; rw [e5]; omega

/-- THE RESULT ARRAY after the region: the biased array cut off at zero, a function of the two arrays as the region finds them. -/
theorem result (c : Dev nD) :
    (dat1 V c).arrAt 2 cfg1.N = biasRelu (V c main_v45) (V c main_v46) :=
  (dat1 V c).arrAt_eq_of_cover 2 _ (fun t _ => flushed_eq V c t) covered

end Cert.KernelIdeal.BiasRelu

end
-- ==== Proof.Dense2.lean ====
/-
  The second dense layer of the network, as the third pallas_call leaves it: on a grid of 25 row tiles, tile `t` takes rows
  `2000·t … 2000·t + 1999` of the hidden features `x : [50000, 128]` (kept in the narrow format, which over the extended reals
  is no change), multiplies them by the whole weight matrix `w : [128, 16]` and adds the one-row array `z : [1, 16]` to every
  row. Index by index the result array is
      out (r, c) = (∑ k, x (r, k) · w (k, c)) + z (0, c),
  a function of the WHOLE arrays: every tile writes its own 2000 rows of it, and the 25 tiles cover all 50000 rows.
-/
import proofs.«421823_j83434034692739_3_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Dense2

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-- Rows of `x` times the matrix `w`, plus the row `z`: the layer's result at every index of the whole array. -/
def rowsTimes (x : S50000x128.Idx → EReal) (w : S128x16.Idx → EReal) (z : S1x16.Idx → EReal) : S50000x16.Idx → EReal :=
  fun i => (∑ k : Fin 128, x (ix2 (i 0) k) * w (ix2 k (i 1))) + z (ix2 (0 : Fin 1) (i 1))

theorem origin2 : (![0, 0] : Fin 2 → Nat) = fun _ => 0 := funext fun a => by fin_cases a <;> rfl

/-! ## The product's operand indices: at output index (r, c) and contraction index k they are (r, k) and (k, c) -/

theorem lhs_row (i : S2000x16.Idx) (q : dot_S2000x128_S128x16_S2000x16_1_0_0_1_n_n.contr.Idx) :
    (dot_S2000x128_S128x16_S2000x16_1_0_0_1_n_n.lhsIdx i q 0).val = (i 0).val := by
  unfold DotDims.lhsIdx
  rw [dif_neg (show ¬(0 : Fin S2000x128.rank) ∈ dot_S2000x128_S128x16_S2000x16_1_0_0_1_n_n.lhsBatch by decide), dif_pos (show (0 : Fin S2000x128.rank) ∈ dot_S2000x128_S128x16_S2000x16_1_0_0_1_n_n.lhsNonContracting by decide)]
  rfl
theorem lhs_col (i : S2000x16.Idx) (q : dot_S2000x128_S128x16_S2000x16_1_0_0_1_n_n.contr.Idx) :
    (dot_S2000x128_S128x16_S2000x16_1_0_0_1_n_n.lhsIdx i q 1).val = (q ⟨0, by decide⟩).val :=
  dot_S2000x128_S128x16_S2000x16_1_0_0_1_n_n.lhsIdx_val_of_single rfl i q
theorem rhs_row (i : S2000x16.Idx) (q : dot_S2000x128_S128x16_S2000x16_1_0_0_1_n_n.contr.Idx) :
    (dot_S2000x128_S128x16_S2000x16_1_0_0_1_n_n.rhsIdx i q 0).val = (q ⟨0, by decide⟩).val :=
  dot_S2000x128_S128x16_S2000x16_1_0_0_1_n_n.rhsIdx_val_of_single rfl i q
theorem rhs_col (i : S2000x16.Idx) (q : dot_S2000x128_S128x16_S2000x16_1_0_0_1_n_n.contr.Idx) :
    (dot_S2000x128_S128x16_S2000x16_1_0_0_1_n_n.rhsIdx i q 1).val = (i 1).val := by
  unfold DotDims.rhsIdx
  rw [dif_neg (show ¬(1 : Fin S128x16.rank) ∈ dot_S2000x128_S128x16_S2000x16_1_0_0_1_n_n.rhsBatch by decide), dif_pos (show (1 : Fin S128x16.rank) ∈ dot_S2000x128_S128x16_S2000x16_1_0_0_1_n_n.rhsNonContracting by decide)]
  rfl

/-- The tile's product into the zero accumulator, at (p, q): the sum over k of row p of the left block times column q of
    the right one. -/
theorem product_at (a : FVec Ideal S2000x128 .bf16) (b : FVec Ideal S128x16 .bf16) (p : Fin 2000) (q : Fin 16) :
    matmul dot_S2000x128_S128x16_S2000x16_1_0_0_1_n_n none a b (constant S2000x16 .f32 0x00000000#32) (ix2 p q)
      = ∑ k : Fin 128, a (ix2 p k) * b (ix2 k q) := by
  show FloatOps.matmul dot_S2000x128_S128x16_S2000x16_1_0_0_1_n_n none a b (constant S2000x16 .f32 0x00000000#32) (ix2 p q) = _
  rw [Ideal.matmul_constant_zero_apply, ← Equiv.sum_comp (ValueIdx.contrEquiv1 dot_S2000x128_S128x16_S2000x16_1_0_0_1_n_n 128 rfl rfl).symm]
  refine Finset.sum_congr rfl fun k _ => ?_
  have hk := ValueIdx.contrEquiv1_symm_val dot_S2000x128_S128x16_S2000x16_1_0_0_1_n_n 128 rfl rfl k
  have el : dot_S2000x128_S128x16_S2000x16_1_0_0_1_n_n.lhsIdx (ix2 p q) ((ValueIdx.contrEquiv1 dot_S2000x128_S128x16_S2000x16_1_0_0_1_n_n 128 rfl rfl).symm k) = ix2 p k := funext fun ax => Fin.ext (by
    match ax with
    | ⟨0, _⟩ => exact lhs_row _ _
    | ⟨1, _⟩ => exact (lhs_col _ _).trans hk)
  have er : dot_S2000x128_S128x16_S2000x16_1_0_0_1_n_n.rhsIdx (ix2 p q) ((ValueIdx.contrEquiv1 dot_S2000x128_S128x16_S2000x16_1_0_0_1_n_n 128 rfl rfl).symm k) = ix2 k q := funext fun ax => Fin.ext (by
    match ax with
    | ⟨0, _⟩ => exact (rhs_row _ _).trans hk
    | ⟨1, _⟩ => exact rhs_col _ _)
  rw [el, er]

/-- What the body stores, at (p, q) of the tile: the product's entry plus the row's entry. -/
theorem stored_at (x0 : Vec Ideal S2000x128 .bf16) (x1 : Vec Ideal S128x16 .f32) (x2 : Vec Ideal S1x16 .f32) (p : Fin 2000) (q : Fin 16) :
    k2_pay1 x0 x1 x2 (ix2 p q) = (∑ k : Fin 128, x0 (ix2 p k) * x1 (ix2 k q)) + x2 (ix2 (0 : Fin 1) q) := by
  unfold k2_pay1
  rw [addf_apply, product_at, shapeCast_self, shapeCast_self, broadcastTo_1b_ab_apply]
  rfl

/-! ## From tiles to the array -/

/-- The printed index maps over the grid: at tile `t` the feature window and the result window sit at row block `t`, the weight
    matrix and the one-row array at their only block. -/
theorem tile_blocks : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The feature window's block at tile `t` is rows `2000·t …` of the array. -/
theorem features_block (c : Dev nD) (t : Fin cfg2.N) (y : S2000x128.Idx) (i : S50000x128.Idx)
    (h0 : (i 0).val = 2000 * t.val + (y 0).val) (h1 : (i 1).val = (y 1).val) :
    (iblk2 V c 0 t : Vec Ideal S2000x128 .bf16) y = (V c main_v47 : S50000x128.Idx → EReal) i := by
  obtain ⟨e0, e1, -⟩ := tile_blocks t
  unfold iblk2
  rw [View.read_apply]
  show V c main_v47 _ = V c main_v47 _
  refine congrArg (V c main_v47) (funext fun a => Fin.ext ?_)
  match a with
  | ⟨0, _⟩ => show win2_0.index t (0 : Fin 2) * 2000 + 1 * (y 0).val = (i 0).val; rw [e0, h0]; omega
  | ⟨1, _⟩ => show win2_0.index t (1 : Fin 2) * 128 + 1 * (y 1).val = (i 1).val; rw [e1, h1]; omega

/-- The weight window's one block is the whole matrix. -/
theorem weights_block (c : Dev nD) (t : Fin cfg2.N) (y : S128x16.Idx) :
    (iblk2 V c 1 t : Vec Ideal S128x16 .f32) y = (V c main_arg4 : S128x16.Idx → EReal) y := by
  obtain ⟨-, -, e2, e3, -⟩ := tile_blocks t
  unfold iblk2
  rw [View.read_apply]
  show V c main_arg4 _ = V c main_arg4 _
  refine congrArg (V c main_arg4) (funext fun a => Fin.ext ?_)
  match a with
  | ⟨0, _⟩ => show win2_1.index t (0 : Fin 2) * 128 + 1 * (y 0).val = (y 0).val; rw [e2]; omega
  | ⟨1, _⟩ => show win2_1.index t (1 : Fin 2) * 16 + 1 * (y 1).val = (y 1).val; rw [e3]; omega

/-- The one-row window's one block is the whole row. -/
theorem row_block (c : Dev nD) (t : Fin cfg2.N) (y : S1x16.Idx) :
    (iblk2 V c 2 t : Vec Ideal S1x16 .f32) y = (V c main_v49 : S1x16.Idx → EReal) y := by
  obtain ⟨-, -, -, -, e4, e5, -⟩ := tile_blocks t
  unfold iblk2
  rw [View.read_apply]
  show V c main_v49 _ = V c main_v49 _
  refine congrArg (V c main_v49) (funext fun a => Fin.ext ?_)
  match a with
  | ⟨0, _⟩ => show win2_2.index t (0 : Fin 2) * 1 + 1 * (y 0).val = (y 0).val; rw [e4]; omega
  | ⟨1, _⟩ => show win2_2.index t (1 : Fin 2) * 16 + 1 * (y 1).val = (y 1).val; rw [e5]; omega

/-- What tile `t` stores at `y` is the layer's result at the array index `y` sits at. -/
theorem stored_tile (c : Dev nD) (t : Fin cfg2.N) (y : S2000x16.Idx) (i : S50000x16.Idx)
    (h0 : (i 0).val = 2000 * t.val + (y 0).val) (h1 : (i 1).val = (y 1).val) :
    k2_pay1 (iblk2 V c 0 t) (iblk2 V c 1 t) (iblk2 V c 2 t) y
      = rowsTimes (V c main_v47) (V c main_arg4) (V c main_v49) i := by
  obtain ⟨p, q, rfl⟩ : ∃ (p : Fin 2000) (q : Fin 16), y = ix2 p q := ⟨y 0, y 1, eq_ix2 y⟩
  refine (stored_at (iblk2 V c 0 t) (iblk2 V c 1 t) (iblk2 V c 2 t) p q).trans ?_
  have hq : i 1 = q := Fin.ext h1
  unfold rowsTimes
  rw [hq, row_block V c t (ix2 (0 : Fin 1) q)]
  refine congrArg (· + (V c main_v49 : S1x16.Idx → EReal) (ix2 (0 : Fin 1) q)) (Finset.sum_congr rfl fun k _ => ?_)
  rw [features_block V c t (ix2 p k) (ix2 (i 0) k) h0 rfl, weights_block V c t (ix2 k q)]

/-- WHAT TILE `t` WRITES BACK is its block of the layer's result. -/
theorem flushed_eq (c : Dev nD) (t : Fin cfg2.N) :
    (dat2 V c).flushed 3 t = ((cfg2.win 3).blk t).view.read (Elt Ideal) (rowsTimes (V c main_v47) (V c main_arg4) (V c main_v49)) := by
  show (cfg2.win 3).cut (grid2.coords t) ((dat2 V c).after 3 t) = _
  rw [after2_3]
  unfold out2_3
  rw [View.canon_unit_zero origin2]
  simp only [View.ld_unit_zero (S := S2000x128) origin2, View.ld_unit_zero (S := S128x16) origin2, View.ld_unit_zero (S := S1x16) origin2]
  obtain ⟨-, -, -, -, -, -, e6, e7⟩ := tile_blocks t
  funext j
  refine stored_tile V c t j _ ?_ ?_
  · show win2_3.index t (0 : Fin 2) * 2000 + 1 * (j 0).val = 2000 * t.val + (j 0).val; rw [e6]; omega
  · show win2_3.index t (1 : Fin 2) * 16 + 1 * (j 1).val = (j 1).val; rw [e7]; omega

/-- An index of the result array is in tile `t`'s block iff each coordinate is in the block's range. -/
theorem mem_tile (t : Fin cfg2.N) (i : S50000x16.Idx) :
    i ∈ ((cfg2.win 3).blk t).view.set ↔ ∀ a : Fin 2, win2_3.index t a * S2000x16.size a ≤ (i a).val ∧ (i a).val < win2_3.index t a * S2000x16.size a + S2000x16.size a := by
  show i ∈ ((View.whole main_v50).slice (win2_3.rect t)).set ↔ _
  rw [View.set_slice_whole, Rect.mem_set_unit]
  exact Iff.rfl

/-- Row `r` of the result is in tile `r / 2000`'s block: the 25 tiles cover the array. -/
theorem covered (i : S50000x16.Idx) : ∃ t : Fin cfg2.N, (cfg2.win 3).flush t = true ∧ i ∈ ((cfg2.win 3).blk t).view.set := by
  have hi0 : (i 0).val < 50000 := (i 0).isLt
  have hi1 : (i 1).val < 16 := (i 1).isLt
  have hlt : (i 0).val / 2000 < cfg2.N := by rw [show cfg2.N = 25 from N_2]; omega
  obtain ⟨t, ht⟩ : ∃ t : Fin cfg2.N, t.val = (i 0).val / 2000 := ⟨⟨_, hlt⟩, rfl⟩
  obtain ⟨-, -, -, -, -, -, e6, e7⟩ := tile_blocks t
  refine ⟨t, flush2_3 t, (mem_tile t i).mpr fun a => ?_⟩
  match a with
  | ⟨0, _⟩ => show win2_3.index t (0 : Fin 2) * 2000 ≤ (i 0).val ∧ (i 0).val < win2_3.index t (0 : Fin 2) * 2000 + 2000; rw [e6, ht]; omega
  | ⟨1, _⟩ => show win2_3.index t (1 : Fin 2) * 16 ≤ (i 1).val ∧ (i 1).val < win2_3.index t (1 : Fin 2) * 16 + 16; rw [e7]; omega

/-- THE RESULT ARRAY after the region: the layer's result, a function of the three arrays as the region finds them. -/
theorem result (c : Dev nD) :
    (dat2 V c).arrAt 3 cfg2.N = rowsTimes (V c main_v47) (V c main_arg4) (V c main_v49) :=
  (dat2 V c).arrAt_eq_of_cover 3 _ (fun t _ => flushed_eq V c t) covered

end Cert.KernelIdeal.Dense2

end
-- ==== Proof.LogSoftmaxSpec.lean ====
/-
  A row-wise log-softmax after a bias. For an array `a : [50000, 16]` and a one-row array `b : [1, 16]`, row `r` of the result is
      v_j = a (r, j) + b (0, j)            (j = 0 … 15)
      M   = the largest of the v_j (the fold of `max` from −∞)
      out (r, c) = (v_c − M) − log (∑ j, exp (v_j − M)),
  every operation the exact one of the extended reals.
-/
import Idealize.ShloMosaic.PureOps.Ideal
import Idealize.ShloMosaic.Lib.ValueIdx

noncomputable section

namespace Cert.LogSoftmaxSpec

open Idealize.ShloMosaic Idealize.ShloMosaic.ValueIdx

/-- The biased row `r` of `a`. -/
def biased (a : (⟨2, ![50000, 16]⟩ : Shape).Idx → EReal) (b : (⟨2, ![1, 16]⟩ : Shape).Idx → EReal) (r : Fin 50000) : Fin 16 → EReal :=
  fun j => a (ix2 r j) + b (ix2 (0 : Fin 1) j)

/-- The row's largest entry, as the fold of `max` from −∞ (the bit pattern 0xFF800000 read over the extended reals). -/
def rowMax (v : Fin 16 → EReal) : EReal :=
  (Finset.univ : Finset (Fin 16)).fold max (Ideal.ofBits .f32 0xFF800000#32) v

/-- Log-softmax of the biased rows. -/
def biasLogSoftmax (a : (⟨2, ![50000, 16]⟩ : Shape).Idx → EReal) (b : (⟨2, ![1, 16]⟩ : Shape).Idx → EReal) :
    (⟨2, ![50000, 16]⟩ : Shape).Idx → EReal :=
  fun i => (biased a b (i 0) (i 1) - rowMax (biased a b (i 0)))
    - Ideal.log (Ideal.ofBits .f32 0x00000000#32 + ∑ j : Fin 16, Ideal.exp (biased a b (i 0) j - rowMax (biased a b (i 0))))

end Cert.LogSoftmaxSpec

end
-- ==== Proof.LogSoftmax.lean ====
/-
  The last pallas_call of the network: on a grid of 25 row tiles, tile `t` takes rows `2000·t … 2000·t + 1999` of the aggregated
  array `a : [50000, 16]`, adds the one-row bias `b : [1, 16]` to every row and takes the log-softmax of each row. The result
  array is `Cert.LogSoftmaxSpec.biasLogSoftmax a b`, a function of the WHOLE arrays: every tile writes its own 2000 rows of it
  (a row's maximum and sum involve that row only), and the 25 tiles cover all 50000 rows.
-/
import proofs.«421823_j83434034692739_3_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import proofs.«421823_j83434034692739_3_alg».proof.Proof.LogSoftmaxSpec

set_option maxRecDepth 16384

noncomputable section

namespace Cert.KernelIdeal.LogSoftmax

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Cert.LogSoftmaxSpec

variable (V : (c : Dev nD) → (b : Ref sig .tc) → Buf (Elt Ideal) ((c : Thread nD τ).loc b))

/-! ## Two layout readings: a vector made a column, and a column repeated along the rows -/

/-- An `[a]` vector cast to the column `[a, 1]` reads, at `(p, u)`, the operand at `p`, whatever the unit coordinate `u`. -/
theorem shapeCast_a_a1_apply {α : Type} {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, c)`, the operand's row `p` at its one column. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem origin2 : (![0, 0] : Fin 2 → Nat) = fun _ => 0 := funext fun a => by fin_cases a <;> rfl

/-! ## The two row reductions -/

/-- Over row `r`, the source index with column `k` inserted is `(r, k)`. -/
theorem lift_row (h : S2000x16.Reduces [1] S2000) (r : Fin 2000) (k : Fin 16) : h.lift (ix1 r) k = ix2 r k :=
  funext fun a => Fin.ext (by match a with | ⟨0, _⟩ => rfl | ⟨1, _⟩ => rfl)

/-- A row's maximum: the fold of `max` from −∞ over the row's 16 entries. -/
theorem rowmax_at (v : FVec Ideal S2000x16 .f32) (h : S2000x16.Reduces [1] S2000) (hφ : FKind.Formats .f32)
    (hacc : (0xFF800000#32 : BitVec 32) = FKind.maximumf.neutral .f32 hφ) (r : Fin 2000) :
    multiReduction .maximumf [1] S2000 v 0xFF800000#32 h hφ hacc (ix1 r)
      = (Finset.univ : Finset (Fin 16)).fold max (Ideal.ofBits .f32 0xFF800000#32) (fun k => v (ix2 r k)) := by
  refine (Ideal.multiReduction_maximumf_single v _ h hφ hacc (ix1 r)).trans ?_
  have e : (v ∘ h.lift (ix1 r)) = fun k : Fin 16 => v (ix2 r k) := funext fun k => congrArg v (lift_row h r k)
  rw [e]
  rfl

/-- A row's sum: the sum of the row's 16 entries (the zero accumulator written as the bit pattern it is). -/
theorem rowsum_at (v : FVec Ideal S2000x16 .f32) (h : S2000x16.Reduces [1] S2000) (hφ : FKind.Formats .f32)
    (hacc : (0x00000000#32 : BitVec 32) = FKind.add.neutral .f32 hφ) (r : Fin 2000) :
    multiReduction .add [1] S2000 v 0x00000000#32 h hφ hacc (ix1 r)
      = Ideal.ofBits .f32 0x00000000#32 + ∑ k : Fin 16, v (ix2 r k) := by
  refine (Ideal.multiReduction_add_single v _ h hφ hacc (ix1 r)).trans ?_
  rw [Ideal.ofBits_zero_f32, zero_add]
  exact Finset.sum_congr rfl fun k _ => congrArg v (lift_row h r k)

/-- A vector of row values made a column and repeated along the rows reads, at `(p, q)`, the value of row `p`. -/
theorem col_at {α : Type} (w : S2000.Idx → α) (h1 : S2000.ShapeCasts S2000x1) (h2 : S2000x1.Broadcasts S2000x16) (p : Fin 2000) (q : Fin 16) :
    broadcastTo S2000x16 (shapeCast S2000x1 w h1) h2 (ix2 p q) = w (ix1 p) := by
  rw [broadcastTo_a1_ab_apply, shapeCast_a_a1_apply]

/-! ## What the body stores -/

/-- Row `p` of a block plus the one-row array. -/
def brow (x0 : Vec Ideal S2000x16 .f32) (x2 : Vec Ideal S1x16 .f32) (p : Fin 2000) : Fin 16 → EReal :=
  fun j => x0 (ix2 p j) + x2 (ix2 (0 : Fin 1) j)

/-- The log-softmax of the rows of ANY block `v`, as the body computes it after the bias is added: at `(p, q)` the entry less the
    row's maximum, less the logarithm of the row's sum of the exponentials of the entries less that maximum. -/
theorem logsoftmax_at (v : FVec Ideal S2000x16 .f32) (h : S2000x16.Reduces [1] S2000) (hφ : FKind.Formats .f32)
    (hm : (0xFF800000#32 : BitVec 32) = FKind.maximumf.neutral .f32 hφ) (ha : (0x00000000#32 : BitVec 32) = FKind.add.neutral .f32 hφ)
    (h1 : S2000.ShapeCasts S2000x1) (h2 : S2000x1.Broadcasts S2000x16) (p : Fin 2000) (q : Fin 16) :
    subf (subf v (broadcastTo S2000x16 (shapeCast S2000x1 (multiReduction .maximumf [1] S2000 v 0xFF800000#32 h hφ hm) h1) h2))
        (broadcastTo S2000x16 (log (shapeCast S2000x1 (multiReduction .add [1] S2000
          (exp (subf v (broadcastTo S2000x16 (shapeCast S2000x1 (multiReduction .maximumf [1] S2000 v 0xFF800000#32 h hφ hm) h1) h2)))
          0x00000000#32 h hφ ha) h1)) h2) (ix2 p q)
      = (v (ix2 p q) - rowMax (fun j => v (ix2 p j)))
        - Ideal.log (Ideal.ofBits .f32 0x00000000#32 + ∑ j : Fin 16, Ideal.exp (v (ix2 p j) - rowMax (fun j => v (ix2 p j)))) := by
  have hmax : ∀ k : Fin 16, broadcastTo S2000x16 (shapeCast S2000x1 (multiReduction .maximumf [1] S2000 v 0xFF800000#32 h hφ hm) h1) h2 (ix2 p k)
      = rowMax (fun j => v (ix2 p j)) := fun k => (col_at _ h1 h2 p k).trans (rowmax_at v h hφ hm p)
  rw [subf_apply, subf_apply, hmax q]
  refine congrArg (fun z => v (ix2 p q) - rowMax (fun j => v (ix2 p j)) - z) ?_
  rw [broadcastTo_a1_ab_apply]
  show Ideal.log (shapeCast S2000x1 _ h1 (ix2 p 0)) = _
  rw [shapeCast_a_a1_apply, rowsum_at]
  refine congrArg (fun z => Ideal.log (Ideal.ofBits .f32 0x00000000#32 + z)) (Finset.sum_congr rfl fun k _ => ?_)
  show Ideal.exp (v (ix2 p k) - _) = _
  rw [hmax k]

/-- What the body stores, at (p, q) of the tile: the log-softmax of the block's row `p` plus the one-row array, at `q`. -/
theorem stored_at (x0 : Vec Ideal S2000x16 .f32) (x2 : Vec Ideal S1x16 .f32) (p : Fin 2000) (q : Fin 16) :
    k3_pay1 x0 x2 (ix2 p q) = (brow x0 x2 p q - rowMax (brow x0 x2 p))
      - Ideal.log (Ideal.ofBits .f32 0x00000000#32 + ∑ j : Fin 16, Ideal.exp (brow x0 x2 p j - rowMax (brow x0 x2 p))) := by
  unfold k3_pay1
  refine (logsoftmax_at _ _ _ _ _ _ _ p q).trans ?_
  have e : ∀ j : Fin 16, (addf (shapeCast S2000x16 x0 shapeCasts_S2000x16_S2000x16)
      (broadcastTo S2000x16 (shapeCast S1x16 x2 shapeCasts_S1x16_S1x16) broadcasts_S1x16_S2000x16) : FVec Ideal S2000x16 .f32) (ix2 p j)
        = brow x0 x2 p j := fun j => by
    rw [addf_apply, shapeCast_self, shapeCast_self, broadcastTo_1b_ab_apply]
    rfl
  simp only [e]

/-! ## From tiles to the array -/

/-- The printed index maps over the grid: at tile `t` the row window and the result window sit at row block `t`, the one-row
    array at its only block. -/
theorem tile_blocks : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- The row window's block at tile `t` is rows `2000·t …` of the array. -/
theorem rows_block (c : Dev nD) (t : Fin cfg3.N) (y : S2000x16.Idx) (i : S50000x16.Idx)
    (h0 : (i 0).val = 2000 * t.val + (y 0).val) (h1 : (i 1).val = (y 1).val) :
    (iblk3 V c 0 t : Vec Ideal S2000x16 .f32) y = (V c main_v63 : S50000x16.Idx → EReal) i := by
  obtain ⟨e0, e1, -⟩ := tile_blocks t
  unfold iblk3
  rw [View.read_apply]
  show V c main_v63 _ = V c main_v63 _
  refine congrArg (V c main_v63) (funext fun a => Fin.ext ?_)
  match a with
  | ⟨0, _⟩ => show win3_0.index t (0 : Fin 2) * 2000 + 1 * (y 0).val = (i 0).val; rw [e0, h0]; omega
  | ⟨1, _⟩ => show win3_0.index t (1 : Fin 2) * 16 + 1 * (y 1).val = (i 1).val; rw [e1, h1]; omega

/-- The one-row window's one block is the whole row. -/
theorem bias_block (c : Dev nD) (t : Fin cfg3.N) (y : S1x16.Idx) :
    (iblk3 V c 1 t : Vec Ideal S1x16 .f32) y = (V c main_v64 : S1x16.Idx → EReal) y := by
  obtain ⟨-, -, e2, e3, -⟩ := tile_blocks t
  unfold iblk3
  rw [View.read_apply]
  show V c main_v64 _ = V c main_v64 _
  refine congrArg (V c main_v64) (funext fun a => Fin.ext ?_)
  match a with
  | ⟨0, _⟩ => show win3_1.index t (0 : Fin 2) * 1 + 1 * (y 0).val = (y 0).val; rw [e2]; omega
  | ⟨1, _⟩ => show win3_1.index t (1 : Fin 2) * 16 + 1 * (y 1).val = (y 1).val; rw [e3]; omega

/-- What tile `t` stores at `y` is the log-softmax of the biased rows at the array index `y` sits at: the block's row is the
    array's row, entry by entry, so its maximum and its sum are that row's. -/
theorem stored_tile (c : Dev nD) (t : Fin cfg3.N) (y : S2000x16.Idx) (i : S50000x16.Idx)
    (h0 : (i 0).val = 2000 * t.val + (y 0).val) (h1 : (i 1).val = (y 1).val) :
    k3_pay1 (iblk3 V c 0 t) (iblk3 V c 1 t) y = biasLogSoftmax (V c main_v63) (V c main_v64) i := by
  obtain ⟨p, q, rfl⟩ : ∃ (p : Fin 2000) (q : Fin 16), y = ix2 p q := ⟨y 0, y 1, eq_ix2 y⟩
  refine (stored_at (iblk3 V c 0 t) (iblk3 V c 1 t) p q).trans ?_
  have hq : i 1 = q := Fin.ext h1
  have hrow : brow (iblk3 V c 0 t) (iblk3 V c 1 t) p = biased (V c main_v63) (V c main_v64) (i 0) := funext fun j => by
    unfold brow biased
    rw [rows_block V c t (ix2 p j) (ix2 (i 0) j) h0 rfl, bias_block V c t (ix2 (0 : Fin 1) j)]
  rw [hrow, ← hq]
  rfl

/-- WHAT TILE `t` WRITES BACK is its block of the log-softmax of the biased rows. -/
theorem flushed_eq (c : Dev nD) (t : Fin cfg3.N) :
    (dat3 V c).flushed 2 t = ((cfg3.win 2).blk t).view.read (Elt Ideal) (biasLogSoftmax (V c main_v63) (V c main_v64)) := by
  show (cfg3.win 2).cut (grid3.coords t) ((dat3 V c).after 2 t) = _
  rw [after3_2]
  unfold out3_2
  rw [View.canon_unit_zero origin2]
  simp only [View.ld_unit_zero (S := S2000x16) origin2, View.ld_unit_zero (S := S1x16) origin2]
  obtain ⟨-, -, -, -, e4, e5⟩ := tile_blocks t
  funext j
  refine stored_tile V c t j _ ?_ ?_
  · show win3_2.index t (0 : Fin 2) * 2000 + 1 * (j 0).val = 2000 * t.val + (j 0).val; rw [e4]; omega
  · show win3_2.index t (1 : Fin 2) * 16 + 1 * (j 1).val = (j 1).val; rw [e5]; omega

/-- An index of the result array is in tile `t`'s block iff each coordinate is in the block's range. -/
theorem mem_tile (t : Fin cfg3.N) (i : S50000x16.Idx) :
    i ∈ ((cfg3.win 2).blk t).view.set ↔ ∀ a : Fin 2, win3_2.index t a * S2000x16.size a ≤ (i a).val ∧ (i a).val < win3_2.index t a * S2000x16.size a + S2000x16.size a := by
  show i ∈ ((View.whole main_v65).slice (win3_2.rect t)).set ↔ _
  rw [View.set_slice_whole, Rect.mem_set_unit]
  exact Iff.rfl

/-- Row `r` of the result is in tile `r / 2000`'s block: the 25 tiles cover the array. -/
theorem covered (i : S50000x16.Idx) : ∃ t : Fin cfg3.N, (cfg3.win 2).flush t = true ∧ i ∈ ((cfg3.win 2).blk t).view.set := by
  have hi0 : (i 0).val < 50000 := (i 0).isLt
  have hi1 : (i 1).val < 16 := (i 1).isLt
  have hlt : (i 0).val / 2000 < cfg3.N := by rw [show cfg3.N = 25 from N_3]; omega
  obtain ⟨t, ht⟩ : ∃ t : Fin cfg3.N, t.val = (i 0).val / 2000 := ⟨⟨_, hlt⟩, rfl⟩
  obtain ⟨-, -, -, -, e4, e5⟩ := tile_blocks t
  refine ⟨t, flush3_2 t, (mem_tile t i).mpr fun a => ?_⟩
  match a with
  | ⟨0, _⟩ => show win3_2.index t (0 : Fin 2) * 2000 ≤ (i 0).val ∧ (i 0).val < win3_2.index t (0 : Fin 2) * 2000 + 2000; rw [e4, ht]; omega
  | ⟨1, _⟩ => show win3_2.index t (1 : Fin 2) * 16 ≤ (i 1).val ∧ (i 1).val < win3_2.index t (1 : Fin 2) * 16 + 16; rw [e5]; omega

/-- THE RESULT ARRAY after the region: the log-softmax of the biased rows, a function of the two arrays as the region finds them. -/
theorem result (c : Dev nD) :
    (dat3 V c).arrAt 2 cfg3.N = biasLogSoftmax (V c main_v63) (V c main_v64) :=
  (dat3 V c).arrAt_eq_of_cover 2 _ (fun t _ => flushed_eq V c t) covered

end Cert.KernelIdeal.LogSoftmax

end
-- ==== Proof.EdgeLists.lean ====
/-
  The edge list with self loops, spelt two ways. The graph's edges arrive as a [2, 800000] array of node numbers: row 0 the
  sources, row 1 the targets. Both programs append one self loop per node, the 50000 node numbers 0 … 49999 in order, and then
  use the lengthened source row and target row, each of 850000 entries. One program takes row r of the edge array, flattens it
  and appends the node numbers; the other stacks the node numbers twice into a [2, 50000] array, appends it to the edge array
  along the columns and only then takes row r and flattens. Entry n of either is edge n's endpoint for n < 800000 and the node
  number n − 800000 after that.
-/
import Idealize.ShloMosaic.Lib.Pipeline.Value
import Idealize.ShloMosaic.Lib.ValueIdx

noncomputable section

namespace Cert.EdgeLists

open Idealize.ShloMosaic
open Idealize.ShloMosaic.ValueIdx

/-- Row `r` of the edge array followed by the node numbers, whichever way it is assembled: entry `n` is edge `n`'s endpoint in row `r` below 800000 and the node number `n − 800000` from there on. -/
private theorem row_eq (r : Nat) (hr : r < 2) (e : (⟨2, ![2, 800000]⟩ : Shape).Idx → BitVec 32)
    (hs : (⟨2, ![2, 800000]⟩ : Shape).Slices ![r, 0] ⟨2, ![1, 800000]⟩)
    (hc : (⟨2, ![1, 800000]⟩ : Shape).ShapeCasts ⟨1, ![800000]⟩)
    (hk : Shape.Concatenates [(⟨1, ![800000]⟩ : Shape), ⟨1, ![50000]⟩] ⟨1, ![850000]⟩ 0)
    (hb : (⟨1, ![50000]⟩ : Shape).BroadcastsInDim ⟨2, ![1, 50000]⟩ (![1] : Fin 1 → Fin 2))
    (hk2 : Shape.Concatenates [(⟨2, ![1, 50000]⟩ : Shape), ⟨2, ![1, 50000]⟩] ⟨2, ![2, 50000]⟩ 0)
    (hk3 : Shape.Concatenates [(⟨2, ![2, 800000]⟩ : Shape), ⟨2, ![2, 50000]⟩] ⟨2, ![2, 850000]⟩ 1)
    (hs' : (⟨2, ![2, 850000]⟩ : Shape).Slices ![r, 0] ⟨2, ![1, 850000]⟩)
    (hc' : (⟨2, ![1, 850000]⟩ : Shape).ShapeCasts ⟨1, ![850000]⟩) :
    concatenate ⟨1, ![850000]⟩ 0
        [⟨⟨1, ![800000]⟩, shapeCast ⟨1, ![800000]⟩ (extractStridedSlice ⟨2, ![1, 800000]⟩ ![r, 0] e hs) hc⟩,
         ⟨⟨1, ![50000]⟩, iotaInDim ⟨1, ![50000]⟩ 32 0⟩] hk
      = shapeCast ⟨1, ![850000]⟩
          (extractStridedSlice ⟨2, ![1, 850000]⟩ ![r, 0]
            (concatenate ⟨2, ![2, 850000]⟩ 1
              [⟨⟨2, ![2, 800000]⟩, e⟩,
               ⟨⟨2, ![2, 50000]⟩, concatenate ⟨2, ![2, 50000]⟩ 0
                  [⟨⟨2, ![1, 50000]⟩, broadcastInDim ⟨2, ![1, 50000]⟩ ![1] hb (iotaInDim ⟨1, ![50000]⟩ 32 0)⟩,
                   ⟨⟨2, ![1, 50000]⟩, broadcastInDim ⟨2, ![1, 50000]⟩ ![1] hb (iotaInDim ⟨1, ![50000]⟩ 32 0)⟩] hk2⟩] hk3) hs') hc' := by
  funext i
  have hi : (i 0).val < 850000 := (i 0).isLt
  by_cases hlt : (i 0).val < 800000
  · -- below 800000 both sides read the edge array at row r, column n
    refine (concatenate_pair_apply_left (t := ⟨1, ![850000]⟩) 0 _ _ hk i rfl (ix1 ⟨(i 0).val, hlt⟩) ?_).trans ?_
    · intro b; match b with | ⟨0, _⟩ => rfl
    refine (shapeCast_apply _ hc _ (ix2 ⟨0, by omega⟩ ⟨(i 0).val, hlt⟩) ?_).trans ?_
    · rw [Shape.rowMajor_val_two, Shape.rowMajor_val_one]
      show 0 * 800000 + (i 0).val = (i 0).val
      omega
    refine (extractStridedSlice_apply _ e hs _ (ix2 ⟨r, hr⟩ ⟨(i 0).val, hlt⟩) ?_).trans ?_
    · intro a
      match a with
      | ⟨0, _⟩ => show r = r + 0; omega
      | ⟨1, _⟩ => show (i 0).val = 0 + (i 0).val; omega
    symm
    refine (shapeCast_apply _ hc' i (ix2 ⟨0, by omega⟩ ⟨(i 0).val, hi⟩) ?_).trans ?_
    · rw [Shape.rowMajor_val_two, Shape.rowMajor_val_one]
      show 0 * 850000 + (i 0).val = (i 0).val
      omega
    refine (extractStridedSlice_apply _ _ hs' _ (ix2 ⟨r, hr⟩ ⟨(i 0).val, hi⟩) ?_).trans ?_
    · intro a
      match a with
      | ⟨0, _⟩ => show r = r + 0; omega
      | ⟨1, _⟩ => show (i 0).val = 0 + (i 0).val; omega
    refine concatenate_pair_apply_left (t := ⟨2, ![2, 850000]⟩) 1 e _ hk3 _ rfl (ix2 ⟨r, hr⟩ ⟨(i 0).val, hlt⟩) ?_
    intro b
    match b with
    | ⟨0, _⟩ => rfl
    | ⟨1, _⟩ => rfl
  · -- from 800000 on both sides are the node number m = n − 800000
    obtain ⟨m, hm⟩ : ∃ m, (i 0).val = m + 800000 := ⟨(i 0).val - 800000, by omega⟩
    have hm' : m < 50000 := by omega
    refine (concatenate_pair_apply_right (t := ⟨1, ![850000]⟩) 0 _ _ hk i rfl rfl (ix1 ⟨m, hm'⟩) ?_ ?_).trans ?_
    · intro b hb; match b with | ⟨0, _⟩ => exact absurd rfl hb
    · show m + 800000 = (i 0).val
      omega
    symm
    refine (shapeCast_apply _ hc' i (ix2 ⟨0, by omega⟩ ⟨(i 0).val, hi⟩) ?_).trans ?_
    · rw [Shape.rowMajor_val_two, Shape.rowMajor_val_one]
      show 0 * 850000 + (i 0).val = (i 0).val
      omega
    refine (extractStridedSlice_apply _ _ hs' _ (ix2 ⟨r, hr⟩ ⟨(i 0).val, hi⟩) ?_).trans ?_
    · intro a
      match a with
      | ⟨0, _⟩ => show r = r + 0; omega
      | ⟨1, _⟩ => show (i 0).val = 0 + (i 0).val; omega
    refine (concatenate_pair_apply_right (t := ⟨2, ![2, 850000]⟩) 1 e _ hk3 _ rfl rfl
      (ix2 ⟨r, hr⟩ ⟨m, hm'⟩) ?_ ?_).trans ?_
    · intro b hb
      match b with
      | ⟨0, _⟩ => rfl
      | ⟨1, _⟩ => exact absurd rfl hb
    · show m + 800000 = (i 0).val
      omega
    -- row r of the stack is the broadcast row of node numbers, whichever of the two it is
    have hrow : ∀ j : (⟨2, ![1, 50000]⟩ : Shape).Idx, (j 1).val = m →
        broadcastInDim ⟨2, ![1, 50000]⟩ ![1] hb (iotaInDim ⟨1, ![50000]⟩ 32 0) j
          = iotaInDim ⟨1, ![50000]⟩ 32 0 (ix1 ⟨m, hm'⟩) := by
      intro j hj
      refine broadcastInDim_apply _ hb _ j _ ?_
      intro a
      match a with
      | ⟨0, _⟩ =>
        show m = if (50000 : Nat) = 1 then 0 else (j 1).val
        rw [if_neg (by omega), hj]
    have hr01 : r = 0 ∨ r = 1 := by omega
    rcases hr01 with rfl | rfl
    · refine (concatenate_pair_apply_left (t := ⟨2, ![2, 50000]⟩) 0 _ _ hk2 _ rfl
        (ix2 ⟨0, by omega⟩ ⟨m, hm'⟩) ?_).trans (hrow _ rfl)
      intro b
      match b with
      | ⟨0, _⟩ => rfl
      | ⟨1, _⟩ => rfl
    · refine (concatenate_pair_apply_right (t := ⟨2, ![2, 50000]⟩) 0 _ _ hk2 _ rfl rfl
        (ix2 ⟨0, by omega⟩ ⟨m, hm'⟩) ?_ ?_).trans (hrow _ rfl)
      · intro b hb
        match b with
        | ⟨0, _⟩ => exact absurd rfl hb
        | ⟨1, _⟩ => rfl
      · show 0 + 1 = 1
        omega

/-- The lengthened row of sources: row 0 of the edge array followed by the node numbers, whichever way it is assembled. -/
theorem sources_eq (e : (⟨2, ![2, 800000]⟩ : Shape).Idx → BitVec 32)
    (hs : (⟨2, ![2, 800000]⟩ : Shape).Slices ![0, 0] ⟨2, ![1, 800000]⟩)
    (hc : (⟨2, ![1, 800000]⟩ : Shape).ShapeCasts ⟨1, ![800000]⟩)
    (hk : Shape.Concatenates [(⟨1, ![800000]⟩ : Shape), ⟨1, ![50000]⟩] ⟨1, ![850000]⟩ 0)
    (hb : (⟨1, ![50000]⟩ : Shape).BroadcastsInDim ⟨2, ![1, 50000]⟩ (![1] : Fin 1 → Fin 2))
    (hk2 : Shape.Concatenates [(⟨2, ![1, 50000]⟩ : Shape), ⟨2, ![1, 50000]⟩] ⟨2, ![2, 50000]⟩ 0)
    (hk3 : Shape.Concatenates [(⟨2, ![2, 800000]⟩ : Shape), ⟨2, ![2, 50000]⟩] ⟨2, ![2, 850000]⟩ 1)
    (hs' : (⟨2, ![2, 850000]⟩ : Shape).Slices ![0, 0] ⟨2, ![1, 850000]⟩)
    (hc' : (⟨2, ![1, 850000]⟩ : Shape).ShapeCasts ⟨1, ![850000]⟩) :
    concatenate ⟨1, ![850000]⟩ 0
        [⟨⟨1, ![800000]⟩, shapeCast ⟨1, ![800000]⟩ (extractStridedSlice ⟨2, ![1, 800000]⟩ ![0, 0] e hs) hc⟩,
         ⟨⟨1, ![50000]⟩, iotaInDim ⟨1, ![50000]⟩ 32 0⟩] hk
      = shapeCast ⟨1, ![850000]⟩
          (extractStridedSlice ⟨2, ![1, 850000]⟩ ![0, 0]
            (concatenate ⟨2, ![2, 850000]⟩ 1
              [⟨⟨2, ![2, 800000]⟩, e⟩,
               ⟨⟨2, ![2, 50000]⟩, concatenate ⟨2, ![2, 50000]⟩ 0
                  [⟨⟨2, ![1, 50000]⟩, broadcastInDim ⟨2, ![1, 50000]⟩ ![1] hb (iotaInDim ⟨1, ![50000]⟩ 32 0)⟩,
                   ⟨⟨2, ![1, 50000]⟩, broadcastInDim ⟨2, ![1, 50000]⟩ ![1] hb (iotaInDim ⟨1, ![50000]⟩ 32 0)⟩] hk2⟩] hk3) hs') hc' := by
  exact row_eq 0 (by omega) e hs hc hk hb hk2 hk3 hs' hc'

/-- The lengthened row of targets: row 1 of the edge array followed by the node numbers, whichever way it is assembled. -/
theorem targets_eq (e : (⟨2, ![2, 800000]⟩ : Shape).Idx → BitVec 32)
    (hs : (⟨2, ![2, 800000]⟩ : Shape).Slices ![1, 0] ⟨2, ![1, 800000]⟩)
    (hc : (⟨2, ![1, 800000]⟩ : Shape).ShapeCasts ⟨1, ![800000]⟩)
    (hk : Shape.Concatenates [(⟨1, ![800000]⟩ : Shape), ⟨1, ![50000]⟩] ⟨1, ![850000]⟩ 0)
    (hb : (⟨1, ![50000]⟩ : Shape).BroadcastsInDim ⟨2, ![1, 50000]⟩ (![1] : Fin 1 → Fin 2))
    (hk2 : Shape.Concatenates [(⟨2, ![1, 50000]⟩ : Shape), ⟨2, ![1, 50000]⟩] ⟨2, ![2, 50000]⟩ 0)
    (hk3 : Shape.Concatenates [(⟨2, ![2, 800000]⟩ : Shape), ⟨2, ![2, 50000]⟩] ⟨2, ![2, 850000]⟩ 1)
    (hs' : (⟨2, ![2, 850000]⟩ : Shape).Slices ![1, 0] ⟨2, ![1, 850000]⟩)
    (hc' : (⟨2, ![1, 850000]⟩ : Shape).ShapeCasts ⟨1, ![850000]⟩) :
    concatenate ⟨1, ![850000]⟩ 0
        [⟨⟨1, ![800000]⟩, shapeCast ⟨1, ![800000]⟩ (extractStridedSlice ⟨2, ![1, 800000]⟩ ![1, 0] e hs) hc⟩,
         ⟨⟨1, ![50000]⟩, iotaInDim ⟨1, ![50000]⟩ 32 0⟩] hk
      = shapeCast ⟨1, ![850000]⟩
          (extractStridedSlice ⟨2, ![1, 850000]⟩ ![1, 0]
            (concatenate ⟨2, ![2, 850000]⟩ 1
              [⟨⟨2, ![2, 800000]⟩, e⟩,
               ⟨⟨2, ![2, 50000]⟩, concatenate ⟨2, ![2, 50000]⟩ 0
                  [⟨⟨2, ![1, 50000]⟩, broadcastInDim ⟨2, ![1, 50000]⟩ ![1] hb (iotaInDim ⟨1, ![50000]⟩ 32 0)⟩,
                   ⟨⟨2, ![1, 50000]⟩, broadcastInDim ⟨2, ![1, 50000]⟩ ![1] hb (iotaInDim ⟨1, ![50000]⟩ 32 0)⟩] hk2⟩] hk3) hs') hc' := by
  exact row_eq 1 (by omega) e hs hc hk hb hk2 hk3 hs' hc'

end Cert.EdgeLists

end
-- ==== Proof.RefLayers.lean ====
/-
  The reference's stages against the kernel program's pieces, each as one function of arrays.
  * The lengthened edge rows and the edge weights: the reference's stages are the kernel's host functions of the edge array
    (the rows by the two assemblies of one list; the weights and the propagations operation for operation).
  * The two dense layers: the reference's `dot_general` at an index is the sum over the contracted axis, which is the tile
    product plus a row that is zero.
  * The first activation: the bias broadcast to every row, the sum, and the larger of it and zero.
-/
import proofs.«421823_j83434034692739_3_alg».proof.Proof.RefRead
import proofs.«421823_j83434034692739_3_alg».proof.Proof.EdgeLists
import proofs.«421823_j83434034692739_3_alg».proof.Proof.Glue
import proofs.«421823_j83434034692739_3_alg».proof.Proof.Dense1
import proofs.«421823_j83434034692739_3_alg».proof.Proof.BiasRelu
import proofs.«421823_j83434034692739_3_alg».proof.Proof.Dense2

set_option maxRecDepth 16384

noncomputable section

namespace Cert.ReferenceIdeal.Layers

open Cert.ReferenceIdeal Cert.ReferenceIdeal.ReadP
open Idealize.ShloMosaic Idealize.ShloMosaic.ValueIdx
open Cert.KernelIdeal.Glue

/-! ## The edge rows, the weights, the propagations -/

theorem sources_eq (x1 : (⟨S2x800000, .i32⟩ : BufTy).Contents (Elt Ideal)) : sourcesK x1 = val_main_v6 (F := Ideal) x1 := by
  unfold sourcesK val_main_v6 val_main_v5 val_main_v4 val_main_v3 val_main_v2 val_main_v1 val_main_v0
  exact Cert.EdgeLists.sources_eq x1 _ _ _ _ _ _ _ _

theorem targets_eq (x1 : (⟨S2x800000, .i32⟩ : BufTy).Contents (Elt Ideal)) : targetsK x1 = val_main_v8 (F := Ideal) x1 := by
  unfold targetsK val_main_v8 val_main_v7 val_main_v4 val_main_v3 val_main_v2 val_main_v1 val_main_v0
  exact Cert.EdgeLists.targets_eq x1 _ _ _ _ _ _ _ _

theorem norm_eq (x1 : (⟨S2x800000, .i32⟩ : BufTy).Contents (Elt Ideal)) : normK (val_main_v6 (F := Ideal) x1) (val_main_v8 (F := Ideal) x1) = val_main_v31 (F := Ideal) x1 := rfl

theorem aggregate128_eq (x0 : (⟨S50000x128, .f32⟩ : BufTy).Contents (Elt Ideal)) (x1 : (⟨S2x800000, .i32⟩ : BufTy).Contents (Elt Ideal)) (x2 : (⟨S128x128, .f32⟩ : BufTy).Contents (Elt Ideal)) :
    aggregate128 (val_main_v32 (F := Ideal) x0 x2) (val_main_v6 (F := Ideal) x1) (val_main_v8 (F := Ideal) x1) (val_main_v31 (F := Ideal) x1)
      = val_main_v45 (F := Ideal) x0 x1 x2 := rfl

theorem aggregate16_eq (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal)) (x4 : (⟨S128x16, .f32⟩ : BufTy).Contents (Elt Ideal)) :
    aggregate16 (val_main_v50 (F := Ideal) x0 x1 x2 x3 x4) (val_main_v6 (F := Ideal) x1) (val_main_v8 (F := Ideal) x1) (val_main_v31 (F := Ideal) x1)
      = val_main_v63 (F := Ideal) x0 x1 x2 x3 x4 := rfl

/-! ## The dense layers -/

theorem dense1_eq (x0 : (⟨S50000x128, .f32⟩ : BufTy).Contents (Elt Ideal)) (x2 : (⟨S128x128, .f32⟩ : BufTy).Contents (Elt Ideal)) (z : (⟨2, ![1, 128]⟩ : Shape).Idx → EReal) (hz : ∀ j : Fin 128, z (ix2 (0 : Fin 1) j) = 0) :
    val_main_v32 (F := Ideal) x0 x2 = Cert.KernelIdeal.Dense1.rowsTimes x0 x2 z := by
  funext i
  rw [val_main_v32_apply]
  unfold Cert.KernelIdeal.Dense1.rowsTimes
  erw [hz, add_zero]
  refine Finset.sum_congr rfl fun k _ => ?_
  have el : lidx_main_v32 i k = ix2 (i 0) k := funext fun a => Fin.ext (by match a with | ⟨0, _⟩ => rfl | ⟨1, _⟩ => rfl)
  have er : ridx_main_v32 i k = ix2 k (i 1) := funext fun a => Fin.ext (by match a with | ⟨0, _⟩ => rfl | ⟨1, _⟩ => rfl)
  rw [el, er]
  rfl

theorem dense2_eq (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal)) (x4 : (⟨S128x16, .f32⟩ : BufTy).Contents (Elt Ideal)) (z : (⟨2, ![1, 16]⟩ : Shape).Idx → EReal) (hz : ∀ j : Fin 16, z (ix2 (0 : Fin 1) j) = 0) :
    val_main_v50 (F := Ideal) x0 x1 x2 x3 x4 = Cert.KernelIdeal.Dense2.rowsTimes (val_main_v49 (F := Ideal) x0 x1 x2 x3) x4 z := by
  funext i
  rw [val_main_v50_apply]
  unfold Cert.KernelIdeal.Dense2.rowsTimes
  erw [hz, add_zero]
  refine Finset.sum_congr rfl fun k _ => ?_
  have el : lidx_main_v50 i k = ix2 (i 0) k := funext fun a => Fin.ext (by match a with | ⟨0, _⟩ => rfl | ⟨1, _⟩ => rfl)
  have er : ridx_main_v50 i k = ix2 k (i 1) := funext fun a => Fin.ext (by match a with | ⟨0, _⟩ => rfl | ⟨1, _⟩ => rfl)
  rw [el, er]
  rfl

/-! ## The first activation -/

theorem relu_eq (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal)) (b : (⟨2, ![1, 128]⟩ : Shape).Idx → EReal) (hb : ∀ j : Fin 128, b (ix2 (0 : Fin 1) j) = x3 (ix1 j)) :
    val_main_v49 (F := Ideal) x0 x1 x2 x3 = Cert.KernelIdeal.BiasRelu.biasRelu (val_main_v45 (F := Ideal) x0 x1 x2) b := by
  funext i
  rw [val_main_v49_apply, val_main_v48_apply, val_main_v47_apply, val_main_v46_apply, val_main_call1_v0_apply, val_main_call1_cst_apply]
  unfold Cert.KernelIdeal.BiasRelu.biasRelu
  erw [hb]
  have e : idx_main_v46 (idx_main_v47 i) = ix1 (i 1) := funext fun a => Fin.ext (by match a with | ⟨0, _⟩ => rfl)
  rw [e]
  rfl

end Cert.ReferenceIdeal.Layers

end
-- ==== Proof.RefLogSoftmax.lean ====
/-
  The reference's last stage is the same log-softmax: it adds the bias (broadcast from `[16]` to every row), takes each row's
  maximum by a reduction from −∞ (and once more against −∞, which changes nothing), subtracts it, exponentiates, sums each row from
  0, takes the logarithm and subtracts.

  Every fact about an operation (the reduction by `max`, the larger of −∞ and a fold, a difference, the specification read at an
  index) is first stated for an arbitrary array or arbitrary extended reals; a program stage then only instantiates it, so that no
  step compares two terms by computing inside a stage.
-/
import proofs.«421823_j83434034692739_3_alg».proof.Proof.RefRead
import proofs.«421823_j83434034692739_3_alg».proof.Proof.LogSoftmaxSpec
import Idealize.ShloMosaic.Lib.Pipeline.Value
import Idealize.ShloMosaic.Lib.ValueIdx
import Idealize.ShloMosaic.PureOps.Ideal.Laws
import Idealize.ShloMosaic.PureOps.Reduce
import Mathlib.Data.Finset.Fold

set_option maxRecDepth 16384

noncomputable section

namespace Cert.ReferenceIdeal.LogSoftmax

open Cert.ReferenceIdeal Cert.ReferenceIdeal.ReadP Cert.LogSoftmaxSpec
open Idealize.ShloMosaic Idealize.ShloMosaic.ValueIdx

/-! ### Facts about the operations, over arbitrary operands -/

/-- Over row `r`, the source index with column `k` inserted is `(r, k)`. -/
theorem lift_row (h : S50000x16.Reduces [1] S50000) (r : Fin 50000) (k : Fin 16) : h.lift (ix1 r) k = ix2 r k :=
  funext fun a => Fin.ext (by match a with | ⟨0, _⟩ => rfl | ⟨1, _⟩ => rfl)

/-- For ANY array `y` of the shape `[50000, 16]`: its reduction by `max` from the −∞ constant over the columns is, at row `r`,
    the maximum of `y`'s row `r`. -/
theorem reduce_max_row (y : (⟨S50000x16, .f32⟩ : BufTy).Contents (Elt Ideal)) (r : Fin 50000) :
    Host.reduce (FloatOps.maximumf (F := Ideal) (φ := .f32)) y (val_main_call2_cst (F := Ideal))
        Gen.reducesTo_S50000x16_S50000_d1 Gen.h_S_ (ix1 r)
      = rowMax (fun j => y (ix2 r j)) := by
  have h : S50000x16.Reduces [1] S50000 := by decide
  refine (Host.reduce_eq_fold_single (FloatOps.maximumf (F := Ideal) (φ := .f32)) y
    (val_main_call2_cst (F := Ideal)) Gen.reducesTo_S50000x16_S50000_d1 h Gen.h_S_ (ix1 r)).trans ?_
  have e : (y ∘ h.lift (ix1 r)) = fun j => y (ix2 r j) :=
    funext fun k => congrArg y (lift_row h r k)
  rw [e]
  rfl

/-- The larger of −∞ and a fold of `max` from −∞ is that fold: the fold is at least its starting value. -/
theorem max_bot_rowMax (v : Fin 16 → EReal) :
    FloatOps.maximumf (F := Ideal) (φ := .f32) (FloatOps.ofBits .f32 0xFF800000#32) (rowMax v) = rowMax v := by
  show max (Ideal.ofBits .f32 0xFF800000#32) (rowMax v) = rowMax v
  exact max_eq_right ((Finset.le_fold_max _).mpr (Or.inl le_rfl))

/-- The sum from the accumulator 0, with the 0 read over the extended reals. -/
theorem zero_add_sum (z : EReal) :
    FloatOps.ofBits (F := Ideal) .f32 0x00000000#32 + z = Ideal.ofBits .f32 0x00000000#32 + z := rfl

/-- The specification at (r, c), for ANY array `a` and one-row array `b`. -/
theorem biasLogSoftmax_at (a : (⟨2, ![50000, 16]⟩ : Shape).Idx → EReal) (b : (⟨2, ![1, 16]⟩ : Shape).Idx → EReal)
    (r : Fin 50000) (c : Fin 16) :
    biasLogSoftmax a b (ix2 r c)
      = (biased a b r c - rowMax (biased a b r))
        - Ideal.log (Ideal.ofBits .f32 0x00000000#32 + ∑ j : Fin 16, Ideal.exp (biased a b r j - rowMax (biased a b r))) := rfl

/-- A biased row at column `j`, for ANY array `a` and one-row array `b`. -/
theorem biased_at (a : (⟨2, ![50000, 16]⟩ : Shape).Idx → EReal) (b : (⟨2, ![1, 16]⟩ : Shape).Idx → EReal)
    (r : Fin 50000) (j : Fin 16) : biased a b r j = a (ix2 r j) + b (ix2 (0 : Fin 1) j) := rfl

/-! ### The reference's stages -/

section

variable (x0 : (⟨S50000x128, .f32⟩ : BufTy).Contents (Elt Ideal)) (x1 : (⟨S2x800000, .i32⟩ : BufTy).Contents (Elt Ideal))
    (x2 : (⟨S128x128, .f32⟩ : BufTy).Contents (Elt Ideal)) (x3 : (⟨S128, .f32⟩ : BufTy).Contents (Elt Ideal))
    (x4 : (⟨S128x16, .f32⟩ : BufTy).Contents (Elt Ideal)) (x5 : (⟨S16, .f32⟩ : BufTy).Contents (Elt Ideal))

/-- Row `r` of the biased array, the operand of the reference's log-softmax. -/
def row (r : Fin 50000) : Fin 16 → EReal := fun j => val_main_v66 (F := Ideal) x0 x1 x2 x3 x4 x5 (ix2 r j)

/-- `row` is the biased array read along row `r`. -/
theorem row_eq (r : Fin 50000) :
    (fun j => val_main_v66 (F := Ideal) x0 x1 x2 x3 x4 x5 (ix2 r j)) = row x0 x1 x2 x3 x4 x5 r := by
  unfold row
  rfl

/-- `row` at column `j` is the biased array at (r, j). -/
theorem row_at (r : Fin 50000) (j : Fin 16) :
    val_main_v66 (F := Ideal) x0 x1 x2 x3 x4 x5 (ix2 r j) = row x0 x1 x2 x3 x4 x5 r j :=
  congrFun (row_eq x0 x1 x2 x3 x4 x5 r) j

/-- The biased array at (r, j): the aggregated array's entry plus entry `j` of the bias vector (broadcast to one row, then to
    every row). -/
theorem row_apply (r : Fin 50000) (j : Fin 16) :
    row x0 x1 x2 x3 x4 x5 r j = val_main_v63 (F := Ideal) x0 x1 x2 x3 x4 (ix2 r j) + x5 (ix1 j) := by
  rw [← row_at, val_main_v66_apply, val_main_v65_apply, val_main_v64_apply, Ideal.addf_def]
  have e : idx_main_v64 (idx_main_v65 (ix2 r j)) = ix1 j := funext fun a => Fin.ext (by match a with | ⟨0, _⟩ => rfl)
  rw [e]

/-- The reduction by `max` from −∞ over the columns, at row `r`: the row's maximum. -/
theorem reduced_max_at (r : Fin 50000) :
    val_main_call2_v0 (F := Ideal) x0 x1 x2 x3 x4 x5 (ix1 r) = rowMax (row x0 x1 x2 x3 x4 x5 r) := by
  unfold val_main_call2_v0
  rw [← row_eq]
  exact reduce_max_row (val_main_v66 (F := Ideal) x0 x1 x2 x3 x4 x5) r

/-- Taking the larger of −∞ and the row's maximum changes nothing. -/
theorem max_at (r : Fin 50000) :
    val_main_call2_v2 (F := Ideal) x0 x1 x2 x3 x4 x5 (ix1 r) = rowMax (row x0 x1 x2 x3 x4 x5 r) := by
  rw [val_main_call2_v2_apply, val_main_call2_v1_apply, val_main_call2_cst_0_apply, reduced_max_at]
  exact max_bot_rowMax _

/-- The maximum broadcast back to the array's shape, at (r, j): row `r`'s maximum. -/
theorem max_bcast_at (r : Fin 50000) (j : Fin 16) :
    val_main_call2_v4 (F := Ideal) x0 x1 x2 x3 x4 x5 (ix2 r j) = rowMax (row x0 x1 x2 x3 x4 x5 r) := by
  rw [val_main_call2_v4_apply, val_main_call2_v3_apply]
  have e : idx_main_call2_v3 (idx_main_call2_v4 (ix2 r j)) = ix1 r := funext fun a => Fin.ext (by match a with | ⟨0, _⟩ => rfl)
  rw [e, max_at]

/-- The entries less their row's maximum. -/
theorem shifted_at (r : Fin 50000) (j : Fin 16) :
    val_main_call2_v5 (F := Ideal) x0 x1 x2 x3 x4 x5 (ix2 r j) = row x0 x1 x2 x3 x4 x5 r j - rowMax (row x0 x1 x2 x3 x4 x5 r) := by
  rw [val_main_call2_v5_apply, max_bcast_at, row_at]
  exact Ideal.subf_def _ _

/-- The row sums of the exponentials, from the accumulator 0. -/
theorem sum_at (r : Fin 50000) :
    val_main_call2_v7 (F := Ideal) x0 x1 x2 x3 x4 x5 (ix1 r)
      = Ideal.ofBits .f32 0x00000000#32 + ∑ k : Fin 16, Ideal.exp (row x0 x1 x2 x3 x4 x5 r k - rowMax (row x0 x1 x2 x3 x4 x5 r)) := by
  rw [val_main_call2_v7_apply, val_main_call2_cst_1_apply]
  refine (zero_add_sum _).trans ?_
  refine congrArg (fun z => Ideal.ofBits .f32 0x00000000#32 + z) (Finset.sum_congr rfl fun k _ => ?_)
  have e : idx_main_call2_v7 (ix1 r) k = ix2 r k := funext fun a => Fin.ext (by match a with | ⟨0, _⟩ => rfl | ⟨1, _⟩ => rfl)
  rw [e, val_main_call2_v6_apply, shifted_at, Ideal.hostUnary_exp_def]

/-- The logarithm of the row sum broadcast back to the array's shape, at (r, j). -/
theorem log_bcast_at (r : Fin 50000) (j : Fin 16) :
    val_main_call2_v10 (F := Ideal) x0 x1 x2 x3 x4 x5 (ix2 r j) = Ideal.log (val_main_call2_v7 (F := Ideal) x0 x1 x2 x3 x4 x5 (ix1 r)) := by
  rw [val_main_call2_v10_apply, val_main_call2_v9_apply, val_main_call2_v8_apply, Ideal.hostUnary_log_def]
  have e : idx_main_call2_v8 (idx_main_call2_v10 (ix2 r j)) = ix1 r := funext fun a => Fin.ext (by match a with | ⟨0, _⟩ => rfl)
  rw [e]

/-- The reference's last stage at (r, c), in terms of row `r` of the biased array. -/
theorem stage_at (r : Fin 50000) (c : Fin 16) :
    val_main_v67 (F := Ideal) x0 x1 x2 x3 x4 x5 (ix2 r c)
      = (row x0 x1 x2 x3 x4 x5 r c - rowMax (row x0 x1 x2 x3 x4 x5 r))
        - Ideal.log (Ideal.ofBits .f32 0x00000000#32 + ∑ k : Fin 16, Ideal.exp (row x0 x1 x2 x3 x4 x5 r k - rowMax (row x0 x1 x2 x3 x4 x5 r))) := by
  rw [val_main_v67_apply, shifted_at, log_bcast_at, sum_at]
  exact Ideal.subf_def _ _

end

/-- The reference's result is the log-softmax of its aggregated array `val_main_v63` biased by any one-row array that holds
    the bias vector `x5`. -/
theorem ref_eq (x0 : (⟨S50000x128, .f32⟩ : BufTy).Contents (Elt Ideal)) (x1 : (⟨S2x800000, .i32⟩ : BufTy).Contents (Elt Ideal))
    (x2 : (⟨S128x128, .f32⟩ : BufTy).Contents (Elt Ideal)) (x3 : (⟨S128, .f32⟩ : BufTy).Contents (Elt Ideal))
    (x4 : (⟨S128x16, .f32⟩ : BufTy).Contents (Elt Ideal)) (x5 : (⟨S16, .f32⟩ : BufTy).Contents (Elt Ideal))
    (b : (⟨2, ![1, 16]⟩ : Shape).Idx → EReal) (hb : ∀ j : Fin 16, b (ix2 (0 : Fin 1) j) = x5 (ix1 j)) :
    val_main_v67 (F := Ideal) x0 x1 x2 x3 x4 x5 = biasLogSoftmax (val_main_v63 (F := Ideal) x0 x1 x2 x3 x4) b := by
  funext i
  obtain ⟨r, c, rfl⟩ : ∃ (r : Fin 50000) (c : Fin 16), i = ix2 r c := ⟨i 0, i 1, eq_ix2 i⟩
  have hrow : row x0 x1 x2 x3 x4 x5 r = biased (val_main_v63 (F := Ideal) x0 x1 x2 x3 x4) b r := funext fun j => by
    rw [row_apply, biased_at, hb j]
  rw [stage_at, hrow, biasLogSoftmax_at]

end Cert.ReferenceIdeal.LogSoftmax

end
-- ==== Proof.Assembly.lean ====
/-
  The kernel program's result, stage by stage. Its @main is ten segments: three stretches of host operations, the first dense
  layer, a stretch, the first activation, a stretch, the second dense layer, a stretch, the last activation. The buffer contents
  at each boundary are named by the generated frame (`Gen.W0` … `Gen.W10`). Walking the boundaries in order, each buffer the
  next segment reads is shown to hold the reference's stage of the same name in mathematics: the lengthened edge rows, the edge
  weights, x·W1, its propagation, the hidden layer max (· + b1) 0, its product with W2, that product's propagation, and at the
  end the log-softmax of the biased rows. A region's result array is the closed form of its module at the region's entry
  contents; a stretch's results are the host functions of the glue module; a buffer nobody writes in between is carried along.
-/
import proofs.«421823_j83434034692739_3_alg».proof.Proof.RunResult
import proofs.«421823_j83434034692739_3_alg».proof.Proof.LibAfter
import proofs.«421823_j83434034692739_3_alg».proof.Proof.Glue
import proofs.«421823_j83434034692739_3_alg».proof.Proof.Dense1
import proofs.«421823_j83434034692739_3_alg».proof.Proof.BiasRelu
import proofs.«421823_j83434034692739_3_alg».proof.Proof.Dense2
import proofs.«421823_j83434034692739_3_alg».proof.Proof.LogSoftmax
import proofs.«421823_j83434034692739_3_alg».proof.Proof.RefLayers
import proofs.«421823_j83434034692739_3_alg».proof.Proof.RefLogSoftmax

set_option maxRecDepth 16384

noncomputable section

namespace Cert.KernelIdeal.Whole

open Cert.KernelIdeal Cert.KernelIdeal.Gen Cert.KernelIdeal.Glue
open Cert.ReferenceIdeal.ReadP
open Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg) (c : Dev nD)

/-! ## Up to the first dense layer -/

theorem W3_cut : W3 m ρ c = StableHlo.after hostOps0_2 (StableHlo.after hostOps0_1 (StableHlo.after degOps (StableHlo.after rowsOps (W0 m ρ c)))) := by
  show StableHlo.after hostOps0_2 (StableHlo.after hostOps0_1 (StableHlo.after hostOps0 (W0 m ρ c))) = _
  rw [hostOps0_split, StableHlo.after_append']

theorem w3_v5 : W3 m ρ c (Proc.devRef .tc main_v5) = val_main_v6 (F := Ideal) (m ((c.tc : Thread nD τ).loc main_arg1)) := by
  rw [W3_cut, tail_keep _ main_v5 (by decide) (by decide) (by decide), head_sources]
  exact Cert.ReferenceIdeal.Layers.sources_eq _

theorem w3_v6 : W3 m ρ c (Proc.devRef .tc main_v6) = val_main_v8 (F := Ideal) (m ((c.tc : Thread nD τ).loc main_arg1)) := by
  rw [W3_cut, tail_keep _ main_v6 (by decide) (by decide) (by decide), head_targets]
  exact Cert.ReferenceIdeal.Layers.targets_eq _

theorem w3_v29 : W3 m ρ c (Proc.devRef .tc main_v29) = val_main_v31 (F := Ideal) (m ((c.tc : Thread nD τ).loc main_arg1)) := by
  rw [W3_cut, tail_norm, head_sources, head_targets]
  refine Eq.trans ?_ (Cert.ReferenceIdeal.Layers.norm_eq _)
  exact congrArg₂ normK (Cert.ReferenceIdeal.Layers.sources_eq _) (Cert.ReferenceIdeal.Layers.targets_eq _)

theorem w3_zero (j : Fin 128) : (W3 m ρ c (Proc.devRef .tc main_v31) : S1x128.Idx → EReal) (ix2 (0 : Fin 1) j) = (0 : EReal) := by
  rw [W3_cut]
  exact tail_zeroRow _ j

theorem w3_arg0 : W3 m ρ c (Proc.devRef .tc main_arg0) = (m ((c.tc : Thread nD τ).loc main_arg0)) := by
  rw [W3_cut, tail_keep _ main_arg0 (by decide) (by decide) (by decide), head_keep _ main_arg0 (by decide)]
theorem w3_arg2 : W3 m ρ c (Proc.devRef .tc main_arg2) = (m ((c.tc : Thread nD τ).loc main_arg2)) := by
  rw [W3_cut, tail_keep _ main_arg2 (by decide) (by decide) (by decide), head_keep _ main_arg2 (by decide)]
theorem w3_arg3 : W3 m ρ c (Proc.devRef .tc main_arg3) = (m ((c.tc : Thread nD τ).loc main_arg3)) := by
  rw [W3_cut, tail_keep _ main_arg3 (by decide) (by decide) (by decide), head_keep _ main_arg3 (by decide)]
theorem w3_arg4 : W3 m ρ c (Proc.devRef .tc main_arg4) = (m ((c.tc : Thread nD τ).loc main_arg4)) := by
  rw [W3_cut, tail_keep _ main_arg4 (by decide) (by decide) (by decide), head_keep _ main_arg4 (by decide)]
theorem w3_arg5 : W3 m ρ c (Proc.devRef .tc main_arg5) = (m ((c.tc : Thread nD τ).loc main_arg5)) := by
  rw [W3_cut, tail_keep _ main_arg5 (by decide) (by decide) (by decide), head_keep _ main_arg5 (by decide)]

/-! ## The first dense layer -/

theorem w4_v32 : W4 m ρ c (Proc.devRef .tc main_v32) = val_main_v32 (F := Ideal) (m ((c.tc : Thread nD τ).loc main_arg0)) (m ((c.tc : Thread nD τ).loc main_arg2)) := by
  refine ((W4_arr m ρ c 3).trans (Cert.KernelIdeal.Dense1.result (V3 m ρ) c)).trans ?_
  have e0 : V3 m ρ c main_arg0 = (m ((c.tc : Thread nD τ).loc main_arg0)) := w3_arg0 m ρ c
  have e2 : V3 m ρ c main_arg2 = (m ((c.tc : Thread nD τ).loc main_arg2)) := w3_arg2 m ρ c
  rw [e0, e2]
  exact (Cert.ReferenceIdeal.Layers.dense1_eq _ _ (V3 m ρ c main_v31) (w3_zero m ρ c)).symm

theorem w4_v5 : W4 m ρ c (Proc.devRef .tc main_v5) = val_main_v6 (F := Ideal) (m ((c.tc : Thread nD τ).loc main_arg1)) := (W4_of_ne m ρ c main_v5 (by decide)).trans (w3_v5 m ρ c)
theorem w4_v6 : W4 m ρ c (Proc.devRef .tc main_v6) = val_main_v8 (F := Ideal) (m ((c.tc : Thread nD τ).loc main_arg1)) := (W4_of_ne m ρ c main_v6 (by decide)).trans (w3_v6 m ρ c)
theorem w4_v29 : W4 m ρ c (Proc.devRef .tc main_v29) = val_main_v31 (F := Ideal) (m ((c.tc : Thread nD τ).loc main_arg1)) := (W4_of_ne m ρ c main_v29 (by decide)).trans (w3_v29 m ρ c)
theorem w4_arg3 : W4 m ρ c (Proc.devRef .tc main_arg3) = (m ((c.tc : Thread nD τ).loc main_arg3)) := (W4_of_ne m ρ c main_arg3 (by decide)).trans (w3_arg3 m ρ c)
theorem w4_arg4 : W4 m ρ c (Proc.devRef .tc main_arg4) = (m ((c.tc : Thread nD τ).loc main_arg4)) := (W4_of_ne m ρ c main_arg4 (by decide)).trans (w3_arg4 m ρ c)
theorem w4_arg5 : W4 m ρ c (Proc.devRef .tc main_arg5) = (m ((c.tc : Thread nD τ).loc main_arg5)) := (W4_of_ne m ρ c main_arg5 (by decide)).trans (w3_arg5 m ρ c)

/-! ## The first propagation and the first activation -/

theorem w5_v45 : W5 m ρ c (Proc.devRef .tc main_v45) = val_main_v45 (F := Ideal) (m ((c.tc : Thread nD τ).loc main_arg0)) (m ((c.tc : Thread nD τ).loc main_arg1)) (m ((c.tc : Thread nD τ).loc main_arg2)) := by
  show StableHlo.after hostOps1 (W4 m ρ c) (Proc.devRef .tc main_v45) = _
  rw [mid1_aggregate, w4_v32, w4_v5, w4_v6, w4_v29]
  exact Cert.ReferenceIdeal.Layers.aggregate128_eq _ _ _

theorem w5_bias (j : Fin 128) : (W5 m ρ c (Proc.devRef .tc main_v46) : S1x128.Idx → EReal) (ix2 (0 : Fin 1) j) = ((m ((c.tc : Thread nD τ).loc main_arg3)) : S128.Idx → EReal) (ix1 j) := by
  show (StableHlo.after hostOps1 (W4 m ρ c) (Proc.devRef .tc main_v46) : S1x128.Idx → EReal) (ix2 (0 : Fin 1) j) = _
  rw [mid1_bias, w4_arg3]

theorem w5_v5 : W5 m ρ c (Proc.devRef .tc main_v5) = val_main_v6 (F := Ideal) (m ((c.tc : Thread nD τ).loc main_arg1)) := (mid1_keep_v5 (W4 m ρ c)).trans (w4_v5 m ρ c)
theorem w5_v6 : W5 m ρ c (Proc.devRef .tc main_v6) = val_main_v8 (F := Ideal) (m ((c.tc : Thread nD τ).loc main_arg1)) := (mid1_keep_v6 (W4 m ρ c)).trans (w4_v6 m ρ c)
theorem w5_v29 : W5 m ρ c (Proc.devRef .tc main_v29) = val_main_v31 (F := Ideal) (m ((c.tc : Thread nD τ).loc main_arg1)) := (mid1_keep_v29 (W4 m ρ c)).trans (w4_v29 m ρ c)
theorem w5_arg4 : W5 m ρ c (Proc.devRef .tc main_arg4) = (m ((c.tc : Thread nD τ).loc main_arg4)) := (mid1_keep_arg4 (W4 m ρ c)).trans (w4_arg4 m ρ c)
theorem w5_arg5 : W5 m ρ c (Proc.devRef .tc main_arg5) = (m ((c.tc : Thread nD τ).loc main_arg5)) := (mid1_keep_arg5 (W4 m ρ c)).trans (w4_arg5 m ρ c)

theorem w6_v47 : W6 m ρ c (Proc.devRef .tc main_v47) = val_main_v49 (F := Ideal) (m ((c.tc : Thread nD τ).loc main_arg0)) (m ((c.tc : Thread nD τ).loc main_arg1)) (m ((c.tc : Thread nD τ).loc main_arg2)) (m ((c.tc : Thread nD τ).loc main_arg3)) := by
  refine ((W6_arr m ρ c 2).trans (Cert.KernelIdeal.BiasRelu.result (V5 m ρ) c)).trans ?_
  have e : V5 m ρ c main_v45 = val_main_v45 (F := Ideal) (m ((c.tc : Thread nD τ).loc main_arg0)) (m ((c.tc : Thread nD τ).loc main_arg1)) (m ((c.tc : Thread nD τ).loc main_arg2)) := w5_v45 m ρ c
  rw [e]
  exact (Cert.ReferenceIdeal.Layers.relu_eq _ _ _ _ (V5 m ρ c main_v46) (w5_bias m ρ c)).symm

theorem w6_v5 : W6 m ρ c (Proc.devRef .tc main_v5) = val_main_v6 (F := Ideal) (m ((c.tc : Thread nD τ).loc main_arg1)) := (W6_of_ne m ρ c main_v5 (by decide)).trans (w5_v5 m ρ c)
theorem w6_v6 : W6 m ρ c (Proc.devRef .tc main_v6) = val_main_v8 (F := Ideal) (m ((c.tc : Thread nD τ).loc main_arg1)) := (W6_of_ne m ρ c main_v6 (by decide)).trans (w5_v6 m ρ c)
theorem w6_v29 : W6 m ρ c (Proc.devRef .tc main_v29) = val_main_v31 (F := Ideal) (m ((c.tc : Thread nD τ).loc main_arg1)) := (W6_of_ne m ρ c main_v29 (by decide)).trans (w5_v29 m ρ c)
theorem w6_arg4 : W6 m ρ c (Proc.devRef .tc main_arg4) = (m ((c.tc : Thread nD τ).loc main_arg4)) := (W6_of_ne m ρ c main_arg4 (by decide)).trans (w5_arg4 m ρ c)
theorem w6_arg5 : W6 m ρ c (Proc.devRef .tc main_arg5) = (m ((c.tc : Thread nD τ).loc main_arg5)) := (W6_of_ne m ρ c main_arg5 (by decide)).trans (w5_arg5 m ρ c)

/-! ## The second dense layer -/

theorem w7_v47 : W7 m ρ c (Proc.devRef .tc main_v47) = val_main_v49 (F := Ideal) (m ((c.tc : Thread nD τ).loc main_arg0)) (m ((c.tc : Thread nD τ).loc main_arg1)) (m ((c.tc : Thread nD τ).loc main_arg2)) (m ((c.tc : Thread nD τ).loc main_arg3)) := (mid2_keep_v47 (W6 m ρ c)).trans (w6_v47 m ρ c)
theorem w7_zero (j : Fin 16) : (W7 m ρ c (Proc.devRef .tc main_v49) : S1x16.Idx → EReal) (ix2 (0 : Fin 1) j) = (0 : EReal) := mid2_zeroRow (W6 m ρ c) j
theorem w7_v5 : W7 m ρ c (Proc.devRef .tc main_v5) = val_main_v6 (F := Ideal) (m ((c.tc : Thread nD τ).loc main_arg1)) := (mid2_keep_v5 (W6 m ρ c)).trans (w6_v5 m ρ c)
theorem w7_v6 : W7 m ρ c (Proc.devRef .tc main_v6) = val_main_v8 (F := Ideal) (m ((c.tc : Thread nD τ).loc main_arg1)) := (mid2_keep_v6 (W6 m ρ c)).trans (w6_v6 m ρ c)
theorem w7_v29 : W7 m ρ c (Proc.devRef .tc main_v29) = val_main_v31 (F := Ideal) (m ((c.tc : Thread nD τ).loc main_arg1)) := (mid2_keep_v29 (W6 m ρ c)).trans (w6_v29 m ρ c)
theorem w7_arg4 : W7 m ρ c (Proc.devRef .tc main_arg4) = (m ((c.tc : Thread nD τ).loc main_arg4)) := (mid2_keep_arg4 (W6 m ρ c)).trans (w6_arg4 m ρ c)
theorem w7_arg5 : W7 m ρ c (Proc.devRef .tc main_arg5) = (m ((c.tc : Thread nD τ).loc main_arg5)) := (mid2_keep_arg5 (W6 m ρ c)).trans (w6_arg5 m ρ c)

theorem w8_v50 : W8 m ρ c (Proc.devRef .tc main_v50) = val_main_v50 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine ((W8_arr m ρ c 3).trans (Cert.KernelIdeal.Dense2.result (V7 m ρ) c)).trans ?_
  have e0 : V7 m ρ c main_v47 = val_main_v49 (F := Ideal) (m ((c.tc : Thread nD τ).loc main_arg0)) (m ((c.tc : Thread nD τ).loc main_arg1)) (m ((c.tc : Thread nD τ).loc main_arg2)) (m ((c.tc : Thread nD τ).loc main_arg3)) := w7_v47 m ρ c
  have e4 : V7 m ρ c main_arg4 = (m ((c.tc : Thread nD τ).loc main_arg4)) := w7_arg4 m ρ c
  rw [e0, e4]
  exact (Cert.ReferenceIdeal.Layers.dense2_eq _ _ _ _ _ (V7 m ρ c main_v49) (w7_zero m ρ c)).symm

theorem w8_v5 : W8 m ρ c (Proc.devRef .tc main_v5) = val_main_v6 (F := Ideal) (m ((c.tc : Thread nD τ).loc main_arg1)) := (W8_of_ne m ρ c main_v5 (by decide)).trans (w7_v5 m ρ c)
theorem w8_v6 : W8 m ρ c (Proc.devRef .tc main_v6) = val_main_v8 (F := Ideal) (m ((c.tc : Thread nD τ).loc main_arg1)) := (W8_of_ne m ρ c main_v6 (by decide)).trans (w7_v6 m ρ c)
theorem w8_v29 : W8 m ρ c (Proc.devRef .tc main_v29) = val_main_v31 (F := Ideal) (m ((c.tc : Thread nD τ).loc main_arg1)) := (W8_of_ne m ρ c main_v29 (by decide)).trans (w7_v29 m ρ c)
theorem w8_arg5 : W8 m ρ c (Proc.devRef .tc main_arg5) = (m ((c.tc : Thread nD τ).loc main_arg5)) := (W8_of_ne m ρ c main_arg5 (by decide)).trans (w7_arg5 m ρ c)

/-! ## The second propagation and the last activation -/

theorem w9_v63 : W9 m ρ c (Proc.devRef .tc main_v63) = val_main_v63 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  show StableHlo.after hostOps3 (W8 m ρ c) (Proc.devRef .tc main_v63) = _
  rw [mid3_aggregate, w8_v50, w8_v5, w8_v6, w8_v29]
  exact Cert.ReferenceIdeal.Layers.aggregate16_eq _ _ _ _ _

theorem w9_bias (j : Fin 16) : (W9 m ρ c (Proc.devRef .tc main_v64) : S1x16.Idx → EReal) (ix2 (0 : Fin 1) j) = ((m ((c.tc : Thread nD τ).loc main_arg5)) : S16.Idx → EReal) (ix1 j) := by
  show (StableHlo.after hostOps3 (W8 m ρ c) (Proc.devRef .tc main_v64) : S1x16.Idx → EReal) (ix2 (0 : Fin 1) j) = _
  rw [mid3_bias, w8_arg5]

/-- THE RESULT BUFFER at the last boundary holds the reference's last stage of the six arguments. -/
theorem result_value : W10 m ρ c (Proc.devRef .tc main_v65) = val_main_v67 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  refine ((W10_arr m ρ c 2).trans (Cert.KernelIdeal.LogSoftmax.result (V9 m ρ) c)).trans ?_
  have e : V9 m ρ c main_v63 = val_main_v63 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := w9_v63 m ρ c
  rw [e]
  exact (Cert.ReferenceIdeal.LogSoftmax.ref_eq _ _ _ _ _ _ (V9 m ρ c main_v64) (w9_bias m ρ c)).symm

end Cert.KernelIdeal.Whole

end
-- ==== Proof.lean ====
/-
  The five claims of this certificate.
  * The word-level kernel and the idealized kernel each run and leave their arguments as launched: the generated frames of the
    four-region program.
  * The reference's run is read by hand: every execution ends with the result buffer at the last stage of the six argument
    arrays (log-softmax of the second propagated layer plus its bias) and the arguments unchanged; dropping the result gives
    its frame.
  * The ideal pass rewrote no operation, so the idealized kernel is the kernel's own text read over the extended reals.
  * Equality of results: the idealized kernel's run ends with its result buffer at the contents of the last boundary between
    its segments, and walking the boundaries (edge rows, edge weights, x·W1, its propagation, max (· + b1) 0, the product with
    W2, its propagation, the biased log-softmax) shows that array to be the reference's last stage of the same arguments.
-/
import proofs.«421823_j83434034692739_3_alg».proof.Defs
import proofs.«421823_j83434034692739_3_alg».proof.Proof.Gen.Kernel
import proofs.«421823_j83434034692739_3_alg».proof.Proof.Gen.Kernel.Skeleton
import proofs.«421823_j83434034692739_3_alg».proof.Proof.Gen.Kernel.Launch
import proofs.«421823_j83434034692739_3_alg».proof.Proof.Gen.Kernel.Points
import proofs.«421823_j83434034692739_3_alg».proof.Proof.Gen.Kernel.Frame
import proofs.«421823_j83434034692739_3_alg».proof.Proof.Gen.KernelIdeal
import proofs.«421823_j83434034692739_3_alg».proof.Proof.Gen.KernelIdeal.Skeleton
import proofs.«421823_j83434034692739_3_alg».proof.Proof.Gen.KernelIdeal.Launch
import proofs.«421823_j83434034692739_3_alg».proof.Proof.Gen.KernelIdeal.Points
import proofs.«421823_j83434034692739_3_alg».proof.Proof.Gen.KernelIdeal.Frame
import proofs.«421823_j83434034692739_3_alg».proof.Proof.Gen.ReferenceIdeal
import proofs.«421823_j83434034692739_3_alg».proof.Proof.Gen.Pre_finite_inputs
import proofs.«421823_j83434034692739_3_alg».proof.Proof.RefRunHand
import proofs.«421823_j83434034692739_3_alg».proof.Proof.Assembly
import Idealize.ShloMosaic.Adequacy
import Idealize.ShloMosaic.Init

noncomputable section

namespace Cert.Proof

open Idealize.ShloMosaic Idealize.SL.Sem

/-- The word-level kernel runs and leaves its arguments as launched. -/
theorem frame_kernel : Cert.frame_Kernel := fun m ρ _ => Cert.Kernel.Gen.frame m ρ

/-- The idealized kernel runs and leaves its arguments as launched. -/
theorem frame_kernelIdeal : Cert.frame_KernelIdeal := fun m ρ _ => Cert.KernelIdeal.Gen.frame m ρ

/-- The reference runs and leaves its arguments as launched: its run, the result dropped. -/
theorem frame_reference : Cert.frame_ReferenceIdeal := fun m ρ _ =>
  (θ_run Cert.ReferenceIdeal.defs _ _).mono (fun _ h c => (h c).2) (Cert.ReferenceIdeal.HandRun.run (F := Ideal) m ρ)

/-- Over the extended reals the two programs, run from memories that agree on the six arguments, end with the same result:
    the reference's last stage of those arguments. -/
theorem algebraic : Cert.algebraic_KernelIdeal_ReferenceIdeal := by
  intro m ρ m' ρ' _ hagree
  refine ⟨fun c => Cert.ReferenceIdeal.ReadP.val_main_v67 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.Whole.result_value m ρ c), (h c).2⟩)
      (Cert.KernelIdeal.Whole.run_result (F := Ideal) m ρ)
  · refine (θ_run Cert.ReferenceIdeal.defs _ _).mono (fun _ h c => ⟨(h c).1.trans ?_, (h c).2⟩)
      (Cert.ReferenceIdeal.HandRun.run (F := Ideal) m' ρ')
    rw [(hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
